-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v41)) (v1 : (c : Dev Cert.KernelIdeal.nD) → Buf (Elt Ideal) ((c.tc : Thread Cert.KernelIdeal.nD Cert.KernelIdeal.τ).loc Cert.KernelIdeal.main_v37_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_v37_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x75 : Shape := ⟨2, ![100000, 75]⟩
abbrev S1600000x14 : Shape := ⟨2, ![1600000, 14]⟩
abbrev S89x32 : Shape := ⟨2, ![89, 32]⟩
abbrev S32 : Shape := ⟨1, ![32]⟩
abbrev S107x50 : Shape := ⟨2, ![107, 50]⟩
abbrev S50 : Shape := ⟨1, ![50]⟩
abbrev S75x50 : Shape := ⟨2, ![75, 50]⟩
abbrev S89x50 : Shape := ⟨2, ![89, 50]⟩
abbrev S14x50 : Shape := ⟨2, ![14, 50]⟩
abbrev S1600000 : Shape := ⟨1, ![1600000]⟩
abbrev S1600000x2 : Shape := ⟨2, ![1600000, 2]⟩
abbrev S_ : Shape := ⟨0, ![]⟩

class Facts : Prop where
  bcast_S_S100000x75 : S_.BroadcastsInDim S100000x75 (![] : Fin 0 → Fin S100000x75.rank)
  reducesTo_S100000x75_S_d0_1 : S100000x75.ReducesTo [0, 1] S_
  h_S_ : 0 < S_.numel
  bcast_S_S1600000x14 : S_.BroadcastsInDim S1600000x14 (![] : Fin 0 → Fin S1600000x14.rank)
  reducesTo_S1600000x14_S_d0_1 : S1600000x14.ReducesTo [0, 1] S_
  bcast_S_S89x32 : S_.BroadcastsInDim S89x32 (![] : Fin 0 → Fin S89x32.rank)
  reducesTo_S89x32_S_d0_1 : S89x32.ReducesTo [0, 1] S_
  bcast_S_S32 : S_.BroadcastsInDim S32 (![] : Fin 0 → Fin S32.rank)
  reducesTo_S32_S_d0 : S32.ReducesTo [0] S_
  bcast_S_S107x50 : S_.BroadcastsInDim S107x50 (![] : Fin 0 → Fin S107x50.rank)
  reducesTo_S107x50_S_d0_1 : S107x50.ReducesTo [0, 1] S_
  bcast_S_S50 : S_.BroadcastsInDim S50 (![] : Fin 0 → Fin S50.rank)
  reducesTo_S50_S_d0 : S50.ReducesTo [0] S_
  bcast_S_S75x50 : S_.BroadcastsInDim S75x50 (![] : Fin 0 → Fin S75x50.rank)
  reducesTo_S75x50_S_d0_1 : S75x50.ReducesTo [0, 1] S_
  bcast_S_S89x50 : S_.BroadcastsInDim S89x50 (![] : Fin 0 → Fin S89x50.rank)
  reducesTo_S89x50_S_d0_1 : S89x50.ReducesTo [0, 1] S_
  bcast_S_S14x50 : S_.BroadcastsInDim S14x50 (![] : Fin 0 → Fin S14x50.rank)
  reducesTo_S14x50_S_d0_1 : S14x50.ReducesTo [0, 1] S_

variable [Facts]

def fn_part3 {F : FTy → Type} [FloatOps F] (main_arg11 : FVec F S50 .f32) (main_v48 : IVec S_ 1) (main_v49 : FVec F S14x50 .f32) (main_v50 : FVec F S14x50 .f32) : IVec S_ 1 :=
  let main_v51 : IVec S14x50 1 := cmpf .olt main_v49 main_v50
  let main_c_19 : IVec S_ 1 := constantI S_ 1 1#1
  let main_v52 : IVec S_ 1 := (fun x v => Host.reduce IntOp.andi x v reducesTo_S14x50_S_d0_1 h_S_) main_v51 main_c_19
  let main_v53 : IVec S_ 1 := andi main_v48 main_v52
  let main_v54 : FVec F S50 .f32 := Host.absf main_arg11
  let main_cst_20 : FVec F S_ .f32 := constant S_ .f32 0x7F800000#32
  let main_v55 : FVec F S50 .f32 := broadcastInDim S50 ![] bcast_S_S50 main_cst_20
  let main_v56 : IVec S50 1 := cmpf .olt main_v54 main_v55
  let main_c_21 : IVec S_ 1 := constantI S_ 1 1#1
  let main_v57 : IVec S_ 1 := (fun x v => Host.reduce IntOp.andi x v reducesTo_S50_S_d0 h_S_) main_v56 main_c_21
  let main_v58 : IVec S_ 1 := andi main_v53 main_v57
  main_v58

def fn_part2 {F : FTy → Type} [FloatOps F] (main_arg7 : FVec F S50 .f32) (main_arg8 : FVec F S89x50 .f32) (main_arg9 : FVec F S50 .f32) (main_arg10 : FVec F S14x50 .f32) (main_arg11 : FVec F S50 .f32) (main_v33 : IVec S_ 1) : IVec S_ 1 :=
  let main_v34 : FVec F S50 .f32 := Host.absf main_arg7
  let main_cst_12 : FVec F S_ .f32 := constant S_ .f32 0x7F800000#32
  let main_v35 : FVec F S50 .f32 := broadcastInDim S50 ![] bcast_S_S50 main_cst_12
  let main_v36 : IVec S50 1 := cmpf .olt main_v34 main_v35
  let main_c_13 : IVec S_ 1 := constantI S_ 1 1#1
  let main_v37 : IVec S_ 1 := (fun x v => Host.reduce IntOp.andi x v reducesTo_S50_S_d0 h_S_) main_v36 main_c_13
  let main_v38 : IVec S_ 1 := andi main_v33 main_v37
  let main_v39 : FVec F S89x50 .f32 := Host.absf main_arg8
  let main_cst_14 : FVec F S_ .f32 := constant S_ .f32 0x7F800000#32
  let main_v40 : FVec F S89x50 .f32 := broadcastInDim S89x50 ![] bcast_S_S89x50 main_cst_14
  let main_v41 : IVec S89x50 1 := cmpf .olt main_v39 main_v40
  let main_c_15 : IVec S_ 1 := constantI S_ 1 1#1
  let main_v42 : IVec S_ 1 := (fun x v => Host.reduce IntOp.andi x v reducesTo_S89x50_S_d0_1 h_S_) main_v41 main_c_15
  let main_v43 : IVec S_ 1 := andi main_v38 main_v42
  let main_v44 : FVec F S50 .f32 := Host.absf main_arg9
  let main_cst_16 : FVec F S_ .f32 := constant S_ .f32 0x7F800000#32
  let main_v45 : FVec F S50 .f32 := broadcastInDim S50 ![] bcast_S_S50 main_cst_16
  let main_v46 : IVec S50 1 := cmpf .olt main_v44 main_v45
  let main_c_17 : IVec S_ 1 := constantI S_ 1 1#1
  let main_v47 : IVec S_ 1 := (fun x v => Host.reduce IntOp.andi x v reducesTo_S50_S_d0 h_S_) main_v46 main_c_17
  let main_v48 : IVec S_ 1 := andi main_v43 main_v47
  let main_v49 : FVec F S14x50 .f32 := Host.absf main_arg10
  let main_cst_18 : FVec F S_ .f32 := constant S_ .f32 0x7F800000#32
  let main_v50 : FVec F S14x50 .f32 := broadcastInDim S14x50 ![] bcast_S_S14x50 main_cst_18
  fn_part3 (F := F) main_arg11 main_v48 main_v49 main_v50

def fn_part1 {F : FTy → Type} [FloatOps F] (main_arg4 : FVec F S107x50 .f32) (main_arg5 : FVec F S50 .f32) (main_arg6 : FVec F S75x50 .f32) (main_arg7 : FVec F S50 .f32) (main_arg8 : FVec F S89x50 .f32) (main_arg9 : FVec F S50 .f32) (main_arg10 : FVec F S14x50 .f32) (main_arg11 : FVec F S50 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S107x50 .f32 := Host.absf main_arg4
  let main_cst_6 : FVec F S_ .f32 := constant S_ .f32 0x7F800000#32
  let main_v20 : FVec F S107x50 .f32 := broadcastInDim S107x50 ![] bcast_S_S107x50 main_cst_6
  let main_v21 : IVec S107x50 1 := cmpf .olt main_v19 main_v20
  let main_c_7 : IVec S_ 1 := constantI S_ 1 1#1
  let main_v22 : IVec S_ 1 := (fun x v => Host.reduce IntOp.andi x v reducesTo_S107x50_S_d0_1 h_S_) main_v21 main_c_7
  let main_v23 : IVec S_ 1 := andi main_v18 main_v22
  let main_v24 : FVec F S50 .f32 := Host.absf main_arg5
  let main_cst_8 : FVec F S_ .f32 := constant S_ .f32 0x7F800000#32
  let main_v25 : FVec F S50 .f32 := broadcastInDim S50 ![] bcast_S_S50 main_cst_8
  let main_v26 : IVec S50 1 := cmpf .olt main_v24 main_v25
  let main_c_9 : IVec S_ 1 := constantI S_ 1 1#1
  let main_v27 : IVec S_ 1 := (fun x v => Host.reduce IntOp.andi x v reducesTo_S50_S_d0 h_S_) main_v26 main_c_9
  let main_v28 : IVec S_ 1 := andi main_v23 main_v27
  let main_v29 : FVec F S75x50 .f32 := Host.absf main_arg6
  let main_cst_10 : FVec F S_ .f32 := constant S_ .f32 0x7F800000#32
  let main_v30 : FVec F S75x50 .f32 := broadcastInDim S75x50 ![] bcast_S_S75x50 main_cst_10
  let main_v31 : IVec S75x50 1 := cmpf .olt main_v29 main_v30
  let main_c_11 : IVec S_ 1 := constantI S_ 1 1#1
  let main_v32 : IVec S_ 1 := (fun x v => Host.reduce IntOp.andi x v reducesTo_S75x50_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S100000x75 .f32) (main_arg1 : FVec F S1600000x14 .f32) (main_arg2 : FVec F S89x32 .f32) (main_arg3 : FVec F S32 .f32) (main_arg4 : FVec F S107x50 .f32) (main_arg5 : FVec F S50 .f32) (main_arg6 : FVec F S75x50 .f32) (main_arg7 : FVec F S50 .f32) (main_arg8 : FVec F S89x50 .f32) (main_arg9 : FVec F S50 .f32) (main_arg10 : FVec F S14x50 .f32) (main_arg11 : FVec F S50 .f32) (main_arg12 : IVec S1600000 32) (main_arg13 : IVec S1600000x2 32) : IVec S_ 1 :=
  let main_v0 : FVec F S100000x75 .f32 := Host.absf main_arg0
  let main_cst : FVec F S_ .f32 := constant S_ .f32 0x7F800000#32
  let main_v1 : FVec F S100000x75 .f32 := broadcastInDim S100000x75 ![] bcast_S_S100000x75 main_cst
  let main_v2 : IVec S100000x75 1 := cmpf .olt main_v0 main_v1
  let main_c : IVec S_ 1 := constantI S_ 1 1#1
  let main_v3 : IVec S_ 1 := (fun x v => Host.reduce IntOp.andi x v reducesTo_S100000x75_S_d0_1 h_S_) main_v2 main_c
  let main_v4 : FVec F S1600000x14 .f32 := Host.absf main_arg1
  let main_cst_0 : FVec F S_ .f32 := constant S_ .f32 0x7F800000#32
  let main_v5 : FVec F S1600000x14 .f32 := broadcastInDim S1600000x14 ![] bcast_S_S1600000x14 main_cst_0
  let main_v6 : IVec S1600000x14 1 := cmpf .olt main_v4 main_v5
  let main_c_1 : IVec S_ 1 := constantI S_ 1 1#1
  let main_v7 : IVec S_ 1 := (fun x v => Host.reduce IntOp.andi x v reducesTo_S1600000x14_S_d0_1 h_S_) main_v6 main_c_1
  let main_v8 : IVec S_ 1 := andi main_v3 main_v7
  let main_v9 : FVec F S89x32 .f32 := Host.absf main_arg2
  let main_cst_2 : FVec F S_ .f32 := constant S_ .f32 0x7F800000#32
  let main_v10 : FVec F S89x32 .f32 := broadcastInDim S89x32 ![] bcast_S_S89x32 main_cst_2
  let main_v11 : IVec S89x32 1 := cmpf .olt main_v9 main_v10
  let main_c_3 : IVec S_ 1 := constantI S_ 1 1#1
  let main_v12 : IVec S_ 1 := (fun x v => Host.reduce IntOp.andi x v reducesTo_S89x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_arg6 main_arg7 main_arg8 main_arg9 main_arg10 main_arg11 main_v13 main_v16
-- ==== Kernel.lean ====
abbrev S100000x75 : Shape := ⟨2, ![100000, 75]⟩
abbrev S1600000x14 : Shape := ⟨2, ![1600000, 14]⟩
abbrev S89x32 : Shape := ⟨2, ![89, 32]⟩
abbrev S32 : Shape := ⟨1, ![32]⟩
abbrev S107x50 : Shape := ⟨2, ![107, 50]⟩
abbrev S50 : Shape := ⟨1, ![50]⟩
abbrev S75x50 : Shape := ⟨2, ![75, 50]⟩
abbrev S89x50 : Shape := ⟨2, ![89, 50]⟩
abbrev S14x50 : Shape := ⟨2, ![14, 50]⟩
abbrev S1600000 : Shape := ⟨1, ![1600000]⟩
abbrev S1600000x2 : Shape := ⟨2, ![1600000, 2]⟩
abbrev S1600000x1 : Shape := ⟨2, ![1600000, 1]⟩
abbrev S_ : Shape := ⟨0, ![]⟩
abbrev S1600000x75 : Shape := ⟨2, ![1600000, 75]⟩
abbrev S14x32 : Shape := ⟨2, ![14, 32]⟩
abbrev S75x32 : Shape := ⟨2, ![75, 32]⟩
abbrev S32x50 : Shape := ⟨2, ![32, 50]⟩
abbrev S1x32 : Shape := ⟨2, ![1, 32]⟩
abbrev S1x50 : Shape := ⟨2, ![1, 50]⟩
abbrev S1600000x32 : Shape := ⟨2, ![1600000, 32]⟩
abbrev S1600000x50 : Shape := ⟨2, ![1600000, 50]⟩
abbrev S4000x14 : Shape := ⟨2, ![4000, 14]⟩
abbrev S4000x75 : Shape := ⟨2, ![4000, 75]⟩
abbrev S4000x32 : Shape := ⟨2, ![4000, 32]⟩
abbrev S4000x50 : Shape := ⟨2, ![4000, 50]⟩
abbrev S100000x32 : Shape := ⟨2, ![100000, 32]⟩
abbrev S100000x50 : Shape := ⟨2, ![100000, 50]⟩

abbrev nBuf : Space → Nat
  | .hbm => 62
  | .vmem => 29
  | .smem => 0
  | _ => 0

abbrev bufTy : (tb : Table) → Fin (tcTables nBuf tb) → BufTy
  | .hbm, ⟨0, _⟩ => ⟨S100000x75, .f32⟩
  | .hbm, ⟨1, _⟩ => ⟨S1600000x14, .f32⟩
  | .hbm, ⟨2, _⟩ => ⟨S89x32, .f32⟩
  | .hbm, ⟨3, _⟩ => ⟨S32, .f32⟩
  | .hbm, ⟨4, _⟩ => ⟨S107x50, .f32⟩
  | .hbm, ⟨5, _⟩ => ⟨S50, .f32⟩
  | .hbm, ⟨6, _⟩ => ⟨S75x50, .f32⟩
  | .hbm, ⟨7, _⟩ => ⟨S50, .f32⟩
  | .hbm, ⟨8, _⟩ => ⟨S89x50, .f32⟩
  | .hbm, ⟨9, _⟩ => ⟨S50, .f32⟩
  | .hbm, ⟨10, _⟩ => ⟨S14x50, .f32⟩
  | .hbm, ⟨11, _⟩ => ⟨S50, .f32⟩
  | .hbm, ⟨12, _⟩ => ⟨S1600000, .i32⟩
  | .hbm, ⟨13, _⟩ => ⟨S1600000x2, .i32⟩
  | .hbm, ⟨14, _⟩ => ⟨S1600000x1, .i32⟩
  | .hbm, ⟨15, _⟩ => ⟨S1600000, .i32⟩
  | .hbm, ⟨16, _⟩ => ⟨S1600000x1, .i32⟩
  | .hbm, ⟨17, _⟩ => ⟨S1600000, .i32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x75, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x75, .f32⟩
  | .hbm, ⟨36, _⟩ => ⟨S14x32, .f32⟩
  | .hbm, ⟨37, _⟩ => ⟨S14x32, .bf16⟩
  | .hbm, ⟨38, _⟩ => ⟨S75x32, .f32⟩
  | .hbm, ⟨39, _⟩ => ⟨S75x32, .bf16⟩
  | .hbm, ⟨40, _⟩ => ⟨S14x50, .f32⟩
  | .hbm, ⟨41, _⟩ => ⟨S14x50, .bf16⟩
  | .hbm, ⟨42, _⟩ => ⟨S75x50, .f32⟩
  | .hbm, ⟨43, _⟩ => ⟨S75x50, .bf16⟩
  | .hbm, ⟨44, _⟩ => ⟨S14x50, .bf16⟩
  | .hbm, ⟨45, _⟩ => ⟨S75x50, .f32⟩
  | .hbm, ⟨46, _⟩ => ⟨S75x50, .bf16⟩
  | .hbm, ⟨47, _⟩ => ⟨S32x50, .f32⟩
  | .hbm, ⟨48, _⟩ => ⟨S32x50, .bf16⟩
  | .hbm, ⟨49, _⟩ => ⟨S75x50, .bf16⟩
  | .hbm, ⟨50, _⟩ => ⟨S1x32, .f32⟩
  | .hbm, ⟨51, _⟩ => ⟨S1x50, .f32⟩
  | .hbm, ⟨52, _⟩ => ⟨S1x50, .f32⟩
  | .hbm, ⟨53, _⟩ => ⟨S1x50, .f32⟩
  | .hbm, ⟨54, _⟩ => ⟨S1x50, .f32⟩
  | .hbm, ⟨55, _⟩ => ⟨S1600000x32, .f32⟩
  | .hbm, ⟨56, _⟩ => ⟨S1600000x50, .f32⟩
  | .hbm, ⟨57, _⟩ => ⟨S_, .f32⟩
  | .hbm, ⟨58, _⟩ => ⟨S100000x32, .f32⟩
  | .hbm, ⟨59, _⟩ => ⟨S1600000x1, .i32⟩
  | .hbm, ⟨60, _⟩ => ⟨S100000x32, .f32⟩
  | .hbm, ⟨61, _⟩ => ⟨S100000x50, .f32⟩
  | .local _ .vmem, ⟨0, _⟩ => ⟨S4000x14, .f32⟩
  | .local _ .vmem, ⟨1, _⟩ => ⟨S4000x14, .f32⟩
  | .local _ .vmem, ⟨2, _⟩ => ⟨S4000x75, .f32⟩
  | .local _ .vmem, ⟨3, _⟩ => ⟨S4000x75, .f32⟩
  | .local _ .vmem, ⟨4, _⟩ => ⟨S4000x75, .f32⟩
  | .local _ .vmem, ⟨5, _⟩ => ⟨S4000x75, .f32⟩
  | .local _ .vmem, ⟨6, _⟩ => ⟨S14x32, .bf16⟩
  | .local _ .vmem, ⟨7, _⟩ => ⟨S75x32, .bf16⟩
  | .local _ .vmem, ⟨8, _⟩ => ⟨S1x32, .f32⟩
  | .local _ .vmem, ⟨9, _⟩ => ⟨S14x50, .bf16⟩
  | .local _ .vmem, ⟨10, _⟩ => ⟨S75x50, .bf16⟩
  | .local _ .vmem, ⟨11, _⟩ => ⟨S1x50, .f32⟩
  | .local _ .vmem, ⟨12, _⟩ => ⟨S14x50, .bf16⟩
  | .local _ .vmem, ⟨13, _⟩ => ⟨S1x50, .f32⟩
  | .local _ .vmem, ⟨14, _⟩ => ⟨S4000x32, .f32⟩
  | .local _ .vmem, ⟨15, _⟩ => ⟨S4000x32, .f32⟩
  | .local _ .vmem, ⟨16, _⟩ => ⟨S4000x50, .f32⟩
  | .local _ .vmem, ⟨17, _⟩ => ⟨S4000x50, .f32⟩
  | .local _ .vmem, ⟨18, _⟩ => ⟨S4000x75, .f32⟩
  | .local _ .vmem, ⟨19, _⟩ => ⟨S4000x75, .f32⟩
  | .local _ .vmem, ⟨20, _⟩ => ⟨S4000x32, .f32⟩
  | .local _ .vmem, ⟨21, _⟩ => ⟨S4000x32, .f32⟩
  | .local _ .vmem, ⟨22, _⟩ => ⟨S75x50, .bf16⟩
  | .local _ .vmem, ⟨23, _⟩ => ⟨S32x50, .bf16⟩
  | .local _ .vmem, ⟨24, _⟩ => ⟨S1x50, .f32⟩
  | .local _ .vmem, ⟨25, _⟩ => ⟨S75x50, .bf16⟩
  | .local _ .vmem, ⟨26, _⟩ => ⟨S1x50, .f32⟩
  | .local _ .vmem, ⟨27, _⟩ => ⟨S4000x50, .f32⟩
  | .local _ .vmem, ⟨28, _⟩ => ⟨S4000x50, .f32⟩
  | _, _ => ⟨S100000x75, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_1 : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37_0 : Ref sig .tc := ⟨.hbm, 55, rfl⟩
abbrev main_v37_1 : Ref sig .tc := ⟨.hbm, 56, rfl⟩
abbrev main_cst : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg3_0 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg7_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem3_0 : DmaSem sig := 23
abbrev cc1_sem4_0 : DmaSem sig := 24
abbrev cc1_sem5_0 : DmaSem sig := 25
abbrev cc1_sem6_0 : DmaSem sig := 26
abbrev cc1_sem7_0 : DmaSem sig := 27
abbrev cc1_sem7_1 : DmaSem sig := 28

abbrev nD : Nat := 1
abbrev τ : Topo := Topo.v7x

variable {F : FTy → Type} [FloatOps F]

abbrev grid0 : Pipeline.Grid := ⟨1, ![400], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x14 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x75 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x75 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S14x32 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S75x32 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S14x50 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S75x50 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x50 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S14x50 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x50 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4000x32 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4000x50 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x75 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S75x50 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x50 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x50 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S75x50 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x50 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4000x50 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S1600000x2_S1600000x1_0_0 : S1600000x2.Slices ![0, 0] S1600000x1
  shapeCasts_S1600000x1_S1600000 : S1600000x1.ShapeCasts S1600000
  slices_S1600000x2_S1600000x1_0_1 : S1600000x2.Slices ![0, 1] S1600000x1
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S89x32_S14x32_0_0 : S89x32.Slices ![0, 0] S14x32
  bitsLt_bf16_f32 : FTy.bits .bf16 < FTy.bits .f32
  slices_S89x32_S75x32_14_0 : S89x32.Slices ![14, 0] S75x32
  slices_S89x50_S14x50_0_0 : S89x50.Slices ![0, 0] S14x50
  slices_S89x50_S75x50_14_0 : S89x50.Slices ![14, 0] S75x50
  slices_S107x50_S75x50_0_0 : S107x50.Slices ![0, 0] S75x50
  slices_S107x50_S32x50_75_0 : S107x50.Slices ![75, 0] S32x50
  shapeCasts_S32_S1x32 : S32.ShapeCasts S1x32
  shapeCasts_S50_S1x50 : S50.ShapeCasts S1x50
  inb_S4000x14_S4000x14_0_0 : ∀ a, (![0, 0] : Fin 2 → Nat) a + S4000x14.size a ≤ S4000x14.size a
  h_S4000x14 : 0 < S4000x14.numel
  inb_S4000x75_S4000x75_0_0 : ∀ a, (![0, 0] : Fin 2 → Nat) a + S4000x75.size a ≤ S4000x75.size a
  h_S4000x75 : 0 < S4000x75.numel
  shapeCasts_S4000x75_S4000x75 : S4000x75.ShapeCasts S4000x75
  inb_S14x32_S14x32_0_0 : ∀ a, (![0, 0] : Fin 2 → Nat) a + S14x32.size a ≤ S14x32.size a
  h_S14x32 : 0 < S14x32.numel
  shapeCasts_S14x32_S14x32 : S14x32.ShapeCasts S14x32
  inb_S75x32_S75x32_0_0 : ∀ a, (![0, 0] : Fin 2 → Nat) a + S75x32.size a ≤ S75x32.size a
  h_S75x32 : 0 < S75x32.numel
  shapeCasts_S75x32_S75x32 : S75x32.ShapeCasts S75x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  inb_S14x50_S14x50_0_0 : ∀ a, (![0, 0] : Fin 2 → Nat) a + S14x50.size a ≤ S14x50.size a
  h_S14x50 : 0 < S14x50.numel
  shapeCasts_S14x50_S14x50 : S14x50.ShapeCasts S14x50
  inb_S75x50_S75x50_0_0 : ∀ a, (![0, 0] : Fin 2 → Nat) a + S75x50.size a ≤ S75x50.size a
  h_S75x50 : 0 < S75x50.numel
  shapeCasts_S75x50_S75x50 : S75x50.ShapeCasts S75x50
  inb_S1x50_S1x50_0_0 : ∀ a, (![0, 0] : Fin 2 → Nat) a + S1x50.size a ≤ S1x50.size a
  h_S1x50 : 0 < S1x50.numel
  shapeCasts_S1x50_S1x50 : S1x50.ShapeCasts S1x50
  broadcasts_S1x32_S4000x32 : S1x32.Broadcasts S4000x32
  broadcasts_S1x50_S4000x50 : S1x50.Broadcasts S4000x50
  inb_S4000x32_S4000x32_0_0 : ∀ a, (![0, 0] : Fin 2 → Nat) a + S4000x32.size a ≤ S4000x32.size a
  h_S4000x32 : 0 < S4000x32.numel
  inb_S4000x50_S4000x50_0_0 : ∀ a, (![0, 0] : Fin 2 → Nat) a + S4000x50.size a ≤ S4000x50.size a
  h_S4000x50 : 0 < S4000x50.numel
  bcast_S_S100000x32 : S_.BroadcastsInDim S100000x32 (![] : Fin 0 → Fin S100000x32.rank)
  shapeCasts_S4000x32_S4000x32 : S4000x32.ShapeCasts S4000x32
  inb_S32x50_S32x50_0_0 : ∀ a, (![0, 0] : Fin 2 → Nat) a + S32x50.size a ≤ S32x50.size a
  h_S32x50 : 0 < S32x50.numel
  shapeCasts_S32x50_S32x50 : S32x50.ShapeCasts S32x50
  gather_S100000x75_S1600000x1_S1600000x75_1_0_n_n_0_1_175_wf : GatherDims.WF S100000x75 S1600000x1 S1600000x75 [1] [0] [] [0] [] 1 ![1, 75]
  dot_S4000x14_S14x32_S4000x32_1_0_0_1_n_n_wf : DotDims.WF S4000x14 S14x32 S4000x32 [1] [0] [0] [1] [] []
  dot_S4000x75_S75x32_S4000x32_1_0_0_1_n_n_wf : DotDims.WF S4000x75 S75x32 S4000x32 [1] [0] [0] [1] [] []
  dot_S4000x14_S14x50_S4000x50_1_0_0_1_n_n_wf : DotDims.WF S4000x14 S14x50 S4000x50 [1] [0] [0] [1] [] []
  dot_S4000x75_S75x50_S4000x50_1_0_0_1_n_n_wf : DotDims.WF S4000x75 S75x50 S4000x50 [1] [0] [0] [1] [] []
  scatter_S100000x32_S1600000x1_S1600000x32_1_0_0_1_wf : ScatterDims.WF S100000x32 S1600000x1 S1600000x32 [1] [0] [0] 1
  dot_S4000x32_S32x50_S4000x50_1_0_0_1_n_n_wf : DotDims.WF S4000x32 S32x50 S4000x50 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x14.size a ≤ S1600000x14.size a
  hwx0_0 : ∀ i : grid0.Coords, EltTy.bits .f32 = 32 ∨ (Rect.block (s := S1600000x14) S4000x14.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x75.size a ≤ S1600000x75.size a
  hwx0_1 : ∀ i : grid0.Coords, EltTy.bits .f32 = 32 ∨ (Rect.block (s := S1600000x75) S4000x75.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x75.size a ≤ S1600000x75.size a
  hwx0_2 : ∀ i : grid0.Coords, EltTy.bits .f32 = 32 ∨ (Rect.block (s := S1600000x75) S4000x75.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S14x32.size a ≤ S14x32.size a
  hwx0_3 : ∀ i : grid0.Coords, EltTy.bits .bf16 = 32 ∨ (Rect.block (s := S14x32) S14x32.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S75x32.size a ≤ S75x32.size a
  hwx0_4 : ∀ i : grid0.Coords, EltTy.bits .bf16 = 32 ∨ (Rect.block (s := S75x32) S75x32.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S14x50.size a ≤ S14x50.size a
  hwx0_6 : ∀ i : grid0.Coords, EltTy.bits .bf16 = 32 ∨ (Rect.block (s := S14x50) S14x50.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S75x50.size a ≤ S75x50.size a
  hwx0_7 : ∀ i : grid0.Coords, EltTy.bits .bf16 = 32 ∨ (Rect.block (s := S75x50) S75x50.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x50.size a ≤ S1x50.size a
  hwx0_8 : ∀ i : grid0.Coords, EltTy.bits .f32 = 32 ∨ (Rect.block (s := S1x50) S1x50.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S14x50.size a ≤ S14x50.size a
  hwx0_9 : ∀ i : grid0.Coords, EltTy.bits .bf16 = 32 ∨ (Rect.block (s := S14x50) S14x50.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x50.size a ≤ S1x50.size a
  hwx0_10 : ∀ i : grid0.Coords, EltTy.bits .f32 = 32 ∨ (Rect.block (s := S1x50) S1x50.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4000x32.size a ≤ S1600000x32.size a
  hwx0_11 : ∀ i : grid0.Coords, EltTy.bits .f32 = 32 ∨ (Rect.block (s := S1600000x32) S4000x32.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S4000x50.size a ≤ S1600000x50.size a
  hwx0_12 : ∀ i : grid0.Coords, EltTy.bits .f32 = 32 ∨ (Rect.block (s := S1600000x50) S4000x50.size (cc0_transform_12 i) (hinb0_12 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x75.size a ≤ S100000x75.size a
  hwx1_0 : ∀ i : grid1.Coords, EltTy.bits .f32 = 32 ∨ (Rect.block (s := S100000x75) S4000x75.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x32.size a ≤ S100000x32.size a
  hwx1_1 : ∀ i : grid1.Coords, EltTy.bits .f32 = 32 ∨ (Rect.block (s := S100000x32) S4000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S75x50.size a ≤ S75x50.size a
  hwx1_2 : ∀ i : grid1.Coords, EltTy.bits .bf16 = 32 ∨ (Rect.block (s := S75x50) S75x50.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x50.size a ≤ S32x50.size a
  hwx1_3 : ∀ i : grid1.Coords, EltTy.bits .bf16 = 32 ∨ (Rect.block (s := S32x50) S32x50.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x50.size a ≤ S1x50.size a
  hwx1_4 : ∀ i : grid1.Coords, EltTy.bits .f32 = 32 ∨ (Rect.block (s := S1x50) S1x50.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S75x50.size a ≤ S75x50.size a
  hwx1_5 : ∀ i : grid1.Coords, EltTy.bits .bf16 = 32 ∨ (Rect.block (s := S75x50) S75x50.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x50.size a ≤ S1x50.size a
  hwx1_6 : ∀ i : grid1.Coords, EltTy.bits .f32 = 32 ∨ (Rect.block (s := S1x50) S1x50.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x50.size a ≤ S100000x50.size a
  hwx1_7 : ∀ i : grid1.Coords, EltTy.bits .f32 = 32 ∨ (Rect.block (s := S100000x50) S4000x50.size (cc1_transform_7 i) (hinb1_7 i)).WholeWords (EltTy.packing .f32)

variable [Facts₀]

def gather_S100000x75_S1600000x1_S1600000x75_1_0_n_n_0_1_175 : GatherDims S100000x75 S1600000x1 S1600000x75 where
  offsetDims := [1]
  collapsedSliceDims := [0]
  operandBatchingDims := []
  startIndicesBatchingDims := []
  startIndexMap := [0]
  indexVectorDim := 1
  sliceSizes := ![1, 75]
  wf := gather_S100000x75_S1600000x1_S1600000x75_1_0_n_n_0_1_175_wf
def dot_S4000x14_S14x32_S4000x32_1_0_0_1_n_n : DotDims S4000x14 S14x32 S4000x32 where
  lhsContracting := [1]
  rhsContracting := [0]
  lhsNonContracting := [0]
  rhsNonContracting := [1]
  lhsBatch := []
  rhsBatch := []
  wf := dot_S4000x14_S14x32_S4000x32_1_0_0_1_n_n_wf
def dot_S4000x75_S75x32_S4000x32_1_0_0_1_n_n : DotDims S4000x75 S75x32 S4000x32 where
  lhsContracting := [1]
  rhsContracting := [0]
  lhsNonContracting := [0]
  rhsNonContracting := [1]
  lhsBatch := []
  rhsBatch := []
  wf := dot_S4000x75_S75x32_S4000x32_1_0_0_1_n_n_wf
def dot_S4000x14_S14x50_S4000x50_1_0_0_1_n_n : DotDims S4000x14 S14x50 S4000x50 where
  lhsContracting := [1]
  rhsContracting := [0]
  lhsNonContracting := [0]
  rhsNonContracting := [1]
  lhsBatch := []
  rhsBatch := []
  wf := dot_S4000x14_S14x50_S4000x50_1_0_0_1_n_n_wf
def dot_S4000x75_S75x50_S4000x50_1_0_0_1_n_n : DotDims S4000x75 S75x50 S4000x50 where
  lhsContracting := [1]
  rhsContracting := [0]
  lhsNonContracting := [0]
  rhsNonContracting := [1]
  lhsBatch := []
  rhsBatch := []
  wf := dot_S4000x75_S75x50_S4000x50_1_0_0_1_n_n_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S4000x32_S32x50_S4000x50_1_0_0_1_n_n : DotDims S4000x32 S32x50 S4000x50 where
  lhsContracting := [1]
  rhsContracting := [0]
  lhsNonContracting := [0]
  rhsNonContracting := [1]
  lhsBatch := []
  rhsBatch := []
  wf := dot_S4000x32_S32x50_S4000x50_1_0_0_1_n_n_wf

abbrev win0_0 : Pipeline.Window sig grid0 :=
  Pipeline.Window.ofSpec (Memref.whole main_arg1) S4000x14.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S4000x75.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S4000x75.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S14x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S75x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v32) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S14x50.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v25) S75x50.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v33) S1x50.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v26) S14x50.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v34) S1x50.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v37_0) S4000x32.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v37_1) S4000x50.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_arg0) S4000x75.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S4000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S75x50.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S32x50.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S1x50.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S75x50.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v36) S1x50.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v41) S4000x50.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x75 : Shape := ⟨2, ![100000, 75]⟩
abbrev S1600000x14 : Shape := ⟨2, ![1600000, 14]⟩
abbrev S89x32 : Shape := ⟨2, ![89, 32]⟩
abbrev S32 : Shape := ⟨1, ![32]⟩
abbrev S107x50 : Shape := ⟨2, ![107, 50]⟩
abbrev S50 : Shape := ⟨1, ![50]⟩
abbrev S75x50 : Shape := ⟨2, ![75, 50]⟩
abbrev S89x50 : Shape := ⟨2, ![89, 50]⟩
abbrev S14x50 : Shape := ⟨2, ![14, 50]⟩
abbrev S1600000 : Shape := ⟨1, ![1600000]⟩
abbrev S1600000x2 : Shape := ⟨2, ![1600000, 2]⟩
abbrev S1600000x1 : Shape := ⟨2, ![1600000, 1]⟩
abbrev S_ : Shape := ⟨0, ![]⟩
abbrev S1600000x75 : Shape := ⟨2, ![1600000, 75]⟩
abbrev S1600000x89 : Shape := ⟨2, ![1600000, 89]⟩
abbrev S1600000x32 : Shape := ⟨2, ![1600000, 32]⟩
abbrev S1x32 : Shape := ⟨2, ![1, 32]⟩
abbrev S100000x32 : Shape := ⟨2, ![100000, 32]⟩
abbrev S100000x107 : Shape := ⟨2, ![100000, 107]⟩
abbrev S100000x50 : Shape := ⟨2, ![100000, 50]⟩
abbrev S1x50 : Shape := ⟨2, ![1, 50]⟩
abbrev S1600000x50 : Shape := ⟨2, ![1600000, 50]⟩

abbrev nBuf : Space → Nat
  | .hbm => 87
  | .vmem => 0
  | .smem => 0
  | _ => 0

abbrev bufTy : (tb : Table) → Fin (tcTables nBuf tb) → BufTy
  | .hbm, ⟨0, _⟩ => ⟨S100000x75, .f32⟩
  | .hbm, ⟨1, _⟩ => ⟨S1600000x14, .f32⟩
  | .hbm, ⟨2, _⟩ => ⟨S89x32, .f32⟩
  | .hbm, ⟨3, _⟩ => ⟨S32, .f32⟩
  | .hbm, ⟨4, _⟩ => ⟨S107x50, .f32⟩
  | .hbm, ⟨5, _⟩ => ⟨S50, .f32⟩
  | .hbm, ⟨6, _⟩ => ⟨S75x50, .f32⟩
  | .hbm, ⟨7, _⟩ => ⟨S50, .f32⟩
  | .hbm, ⟨8, _⟩ => ⟨S89x50, .f32⟩
  | .hbm, ⟨9, _⟩ => ⟨S50, .f32⟩
  | .hbm, ⟨10, _⟩ => ⟨S14x50, .f32⟩
  | .hbm, ⟨11, _⟩ => ⟨S50, .f32⟩
  | .hbm, ⟨12, _⟩ => ⟨S1600000, .i32⟩
  | .hbm, ⟨13, _⟩ => ⟨S1600000x2, .i32⟩
  | .hbm, ⟨14, _⟩ => ⟨S1600000x1, .i32⟩
  | .hbm, ⟨15, _⟩ => ⟨S1600000, .i32⟩
  | .hbm, ⟨16, _⟩ => ⟨S1600000x1, .i32⟩
  | .hbm, ⟨17, _⟩ => ⟨S1600000, .i32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x75, .f32⟩
  | .hbm, ⟨27, _⟩ => ⟨S1600000x89, .f32⟩
  | .hbm, ⟨28, _⟩ => ⟨S1600000x32, .f32⟩
  | .hbm, ⟨29, _⟩ => ⟨S1x32, .f32⟩
  | .hbm, ⟨30, _⟩ => ⟨S1600000x32, .f32⟩
  | .hbm, ⟨31, _⟩ => ⟨S1600000x32, .f32⟩
  | .hbm, ⟨32, _⟩ => ⟨S_, .f32⟩
  | .hbm, ⟨33, _⟩ => ⟨S1600000x32, .f32⟩
  | .hbm, ⟨34, _⟩ => ⟨S1600000x32, .f32⟩
  | .hbm, ⟨35, _⟩ => ⟨S_, .f32⟩
  | .hbm, ⟨36, _⟩ => ⟨S100000x32, .f32⟩
  | .hbm, ⟨37, _⟩ => ⟨S1600000x1, .i32⟩
  | .hbm, ⟨38, _⟩ => ⟨S100000x32, .f32⟩
  | .hbm, ⟨39, _⟩ => ⟨S100000x107, .f32⟩
  | .hbm, ⟨40, _⟩ => ⟨S100000x50, .f32⟩
  | .hbm, ⟨41, _⟩ => ⟨S1x50, .f32⟩
  | .hbm, ⟨42, _⟩ => ⟨S100000x50, .f32⟩
  | .hbm, ⟨43, _⟩ => ⟨S100000x50, .f32⟩
  | .hbm, ⟨44, _⟩ => ⟨S_, .f32⟩
  | .hbm, ⟨45, _⟩ => ⟨S100000x50, .f32⟩
  | .hbm, ⟨46, _⟩ => ⟨S100000x50, .f32⟩
  | .hbm, ⟨47, _⟩ => ⟨S100000x50, .f32⟩
  | .hbm, ⟨48, _⟩ => ⟨S1x50, .f32⟩
  | .hbm, ⟨49, _⟩ => ⟨S100000x50, .f32⟩
  | .hbm, ⟨50, _⟩ => ⟨S100000x50, .f32⟩
  | .hbm, ⟨51, _⟩ => ⟨S_, .f32⟩
  | .hbm, ⟨52, _⟩ => ⟨S100000x50, .f32⟩
  | .hbm, ⟨53, _⟩ => ⟨S100000x50, .f32⟩
  | .hbm, ⟨54, _⟩ => ⟨S100000x50, .f32⟩
  | .hbm, ⟨55, _⟩ => ⟨S_, .f32⟩
  | .hbm, ⟨56, _⟩ => ⟨S100000x50, .f32⟩
  | .hbm, ⟨57, _⟩ => ⟨S100000x50, .f32⟩
  | .hbm, ⟨58, _⟩ => ⟨S_, .i32⟩
  | .hbm, ⟨59, _⟩ => ⟨S1600000, .i32⟩
  | .hbm, ⟨60, _⟩ => ⟨S1600000, .i1⟩
  | .hbm, ⟨61, _⟩ => ⟨S_, .i32⟩
  | .hbm, ⟨62, _⟩ => ⟨S1600000, .i32⟩
  | .hbm, ⟨63, _⟩ => ⟨S1600000, .i32⟩
  | .hbm, ⟨64, _⟩ => ⟨S1600000, .i32⟩
  | .hbm, ⟨65, _⟩ => ⟨S1600000x1, .i32⟩
  | .hbm, ⟨66, _⟩ => ⟨S1600000x75, .f32⟩
  | .hbm, ⟨67, _⟩ => ⟨S1600000x75, .f32⟩
  | .hbm, ⟨68, _⟩ => ⟨S1600000x89, .f32⟩
  | .hbm, ⟨69, _⟩ => ⟨S1600000x50, .f32⟩
  | .hbm, ⟨70, _⟩ => ⟨S1x50, .f32⟩
  | .hbm, ⟨71, _⟩ => ⟨S1600000x50, .f32⟩
  | .hbm, ⟨72, _⟩ => ⟨S1600000x50, .f32⟩
  | .hbm, ⟨73, _⟩ => ⟨S_, .f32⟩
  | .hbm, ⟨74, _⟩ => ⟨S1600000x50, .f32⟩
  | .hbm, ⟨75, _⟩ => ⟨S1600000x50, .f32⟩
  | .hbm, ⟨76, _⟩ => ⟨S1600000x50, .f32⟩
  | .hbm, ⟨77, _⟩ => ⟨S1x50, .f32⟩
  | .hbm, ⟨78, _⟩ => ⟨S1600000x50, .f32⟩
  | .hbm, ⟨79, _⟩ => ⟨S1600000x50, .f32⟩
  | .hbm, ⟨80, _⟩ => ⟨S_, .f32⟩
  | .hbm, ⟨81, _⟩ => ⟨S1600000x50, .f32⟩
  | .hbm, ⟨82, _⟩ => ⟨S1600000x50, .f32⟩
  | .hbm, ⟨83, _⟩ => ⟨S1600000x50, .f32⟩
  | .hbm, ⟨84, _⟩ => ⟨S_, .f32⟩
  | .hbm, ⟨85, _⟩ => ⟨S1600000x50, .f32⟩
  | .hbm, ⟨86, _⟩ => ⟨S1600000x50, .f32⟩
  | _, _ => ⟨S100000x75, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_call0_cst : Ref sig .tc := ⟨.hbm, 32, rfl⟩
abbrev main_call0_v0 : Ref sig .tc := ⟨.hbm, 33, rfl⟩
abbrev main_v16 : Ref sig .tc := ⟨.hbm, 34, rfl⟩
abbrev main_cst : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_call1_cst : Ref sig .tc := ⟨.hbm, 44, rfl⟩
abbrev main_call1_v0 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_call2_cst : Ref sig .tc := ⟨.hbm, 51, rfl⟩
abbrev main_call2_v0 : Ref sig .tc := ⟨.hbm, 52, rfl⟩
abbrev main_v30 : Ref sig .tc := ⟨.hbm, 53, rfl⟩
abbrev main_v31 : Ref sig .tc := ⟨.hbm, 54, rfl⟩
abbrev main_call3_cst : Ref sig .tc := ⟨.hbm, 55, rfl⟩
abbrev main_call3_v0 : Ref sig .tc := ⟨.hbm, 56, rfl⟩
abbrev main_v32 : Ref sig .tc := ⟨.hbm, 57, rfl⟩
abbrev main_c_1 : Ref sig .tc := ⟨.hbm, 58, rfl⟩
abbrev main_v33 : Ref sig .tc := ⟨.hbm, 59, rfl⟩
abbrev main_v34 : Ref sig .tc := ⟨.hbm, 60, rfl⟩
abbrev main_c_2 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_call4_cst : Ref sig .tc := ⟨.hbm, 73, rfl⟩
abbrev main_call4_v0 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_call5_cst : Ref sig .tc := ⟨.hbm, 80, rfl⟩
abbrev main_call5_v0 : Ref sig .tc := ⟨.hbm, 81, rfl⟩
abbrev main_v51 : Ref sig .tc := ⟨.hbm, 82, rfl⟩
abbrev main_v52 : Ref sig .tc := ⟨.hbm, 83, rfl⟩
abbrev main_call6_cst : Ref sig .tc := ⟨.hbm, 84, rfl⟩
abbrev main_call6_v0 : Ref sig .tc := ⟨.hbm, 85, rfl⟩
abbrev main_v53 : Ref sig .tc := ⟨.hbm, 86, rfl⟩

abbrev nD : Nat := 1
abbrev τ : Topo := Topo.v7x

variable {F : FTy → Type} [FloatOps F]

class Facts₀ : Prop where
  slices_S1600000x2_S1600000x1_0_0 : S1600000x2.Slices ![0, 0] S1600000x1
  shapeCasts_S1600000x1_S1600000 : S1600000x1.ShapeCasts S1600000
  slices_S1600000x2_S1600000x1_0_1 : S1600000x2.Slices ![0, 1] S1600000x1
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x14_S1600000x75_S1600000x89_d1 : Shape.Concatenates [S1600000x14, S1600000x75] S1600000x89 1
  bcast_S32_S1x32_1 : S32.BroadcastsInDim S1x32 (![1] : Fin 1 → Fin S1x32.rank)
  bcast_S1x32_S1600000x32_0_1 : S1x32.BroadcastsInDim S1600000x32 (![0, 1] : Fin 2 → Fin S1600000x32.rank)
  bcast_S_S1600000x32 : S_.BroadcastsInDim S1600000x32 (![] : Fin 0 → Fin S1600000x32.rank)
  bcast_S_S100000x32 : S_.BroadcastsInDim S100000x32 (![] : Fin 0 → Fin S100000x32.rank)
  concatenates_S100000x75_S100000x32_S100000x107_d1 : Shape.Concatenates [S100000x75, S100000x32] S100000x107 1
  bcast_S50_S1x50_1 : S50.BroadcastsInDim S1x50 (![1] : Fin 1 → Fin S1x50.rank)
  bcast_S1x50_S100000x50_0_1 : S1x50.BroadcastsInDim S100000x50 (![0, 1] : Fin 2 → Fin S100000x50.rank)
  bcast_S_S100000x50 : S_.BroadcastsInDim S100000x50 (![] : Fin 0 → Fin S100000x50.rank)
  bcast_S1x50_S1600000x50_0_1 : S1x50.BroadcastsInDim S1600000x50 (![0, 1] : Fin 2 → Fin S1600000x50.rank)
  bcast_S_S1600000x50 : S_.BroadcastsInDim S1600000x50 (![] : Fin 0 → Fin S1600000x50.rank)
  gather_S100000x75_S1600000x1_S1600000x75_1_0_n_n_0_1_175_wf : GatherDims.WF S100000x75 S1600000x1 S1600000x75 [1] [0] [] [0] [] 1 ![1, 75]
  dot_S1600000x89_S89x32_S1600000x32_1_0_0_1_n_n_wf : DotDims.WF S1600000x89 S89x32 S1600000x32 [1] [0] [0] [1] [] []
  scatter_S100000x32_S1600000x1_S1600000x32_1_0_0_1_wf : ScatterDims.WF S100000x32 S1600000x1 S1600000x32 [1] [0] [0] 1
  dot_S100000x107_S107x50_S100000x50_1_0_0_1_n_n_wf : DotDims.WF S100000x107 S107x50 S100000x50 [1] [0] [0] [1] [] []
  dot_S100000x75_S75x50_S100000x50_1_0_0_1_n_n_wf : DotDims.WF S100000x75 S75x50 S100000x50 [1] [0] [0] [1] [] []
  dot_S1600000x89_S89x50_S1600000x50_1_0_0_1_n_n_wf : DotDims.WF S1600000x89 S89x50 S1600000x50 [1] [0] [0] [1] [] []
  dot_S1600000x14_S14x50_S1600000x50_1_0_0_1_n_n_wf : DotDims.WF S1600000x14 S14x50 S1600000x50 [1] [0] [0] [1] [] []

variable [Facts₀]

def gather_S100000x75_S1600000x1_S1600000x75_1_0_n_n_0_1_175 : GatherDims S100000x75 S1600000x1 S1600000x75 where
  offsetDims := [1]
  collapsedSliceDims := [0]
  operandBatchingDims := []
  startIndicesBatchingDims := []
  startIndexMap := [0]
  indexVectorDim := 1
  sliceSizes := ![1, 75]
  wf := gather_S100000x75_S1600000x1_S1600000x75_1_0_n_n_0_1_175_wf
def dot_S1600000x89_S89x32_S1600000x32_1_0_0_1_n_n : DotDims S1600000x89 S89x32 S1600000x32 where
  lhsContracting := [1]
  rhsContracting := [0]
  lhsNonContracting := [0]
  rhsNonContracting := [1]
  lhsBatch := []
  rhsBatch := []
  wf := dot_S1600000x89_S89x32_S1600000x32_1_0_0_1_n_n_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x107_S107x50_S100000x50_1_0_0_1_n_n : DotDims S100000x107 S107x50 S100000x50 where
  lhsContracting := [1]
  rhsContracting := [0]
  lhsNonContracting := [0]
  rhsNonContracting := [1]
  lhsBatch := []
  rhsBatch := []
  wf := dot_S100000x107_S107x50_S100000x50_1_0_0_1_n_n_wf
def dot_S100000x75_S75x50_S100000x50_1_0_0_1_n_n : DotDims S100000x75 S75x50 S100000x50 where
  lhsContracting := [1]
  rhsContracting := [0]
  lhsNonContracting := [0]
  rhsNonContracting := [1]
  lhsBatch := []
  rhsBatch := []
  wf := dot_S100000x75_S75x50_S100000x50_1_0_0_1_n_n_wf
def dot_S1600000x89_S89x50_S1600000x50_1_0_0_1_n_n : DotDims S1600000x89 S89x50 S1600000x50 where
  lhsContracting := [1]
  rhsContracting := [0]
  lhsNonContracting := [0]
  rhsNonContracting := [1]
  lhsBatch := []
  rhsBatch := []
  wf := dot_S1600000x89_S89x50_S1600000x50_1_0_0_1_n_n_wf
def dot_S1600000x14_S14x50_S1600000x50_1_0_0_1_n_n : DotDims S1600000x14 S14x50 S1600000x50 where
  lhsContracting := [1]
  rhsContracting := [0]
  lhsNonContracting := [0]
  rhsNonContracting := [1]
  lhsBatch := []
  rhsBatch := []
  wf := dot_S1600000x14_S14x50_S1600000x50_1_0_0_1_n_n_wf

class Facts : Prop extends Facts₀ where

variable [Facts]
-- ==== Proof.HostRead.lean ====
import proofs.«114345_j14705968022035_1_alg».proof.Proof.Gen.KernelIdeal.Frame
import Idealize.ShloMosaic.Lib.StableHlo.Run

set_option maxRecDepth 16384

noncomputable section

namespace Cert.KernelIdeal.Host

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-! ## The host's index chains and gathers, named

The two endpoint columns of the pair table, the wrap of a negative index by the table's length, and the rows of the
atom features gathered at an endpoint: the same terms in both programs, carried as whole functions and never opened. -/

/-- Column `0` of the pair table (each pair's first endpoint). -/
def col0 (x13 : (⟨S1600000x2, .i32⟩ : BufTy).Contents (Elt F)) : (⟨S1600000, .i32⟩ : BufTy).Contents (Elt F) :=
  shapeCast _ (extractStridedSlice S1600000x1 ![0, 0] x13 slices_S1600000x2_S1600000x1_0_0) shapeCasts_S1600000x1_S1600000
/-- Column `1` of the pair table (each pair's second endpoint). -/
def col1 (x13 : (⟨S1600000x2, .i32⟩ : BufTy).Contents (Elt F)) : (⟨S1600000, .i32⟩ : BufTy).Contents (Elt F) :=
  shapeCast _ (extractStridedSlice S1600000x1 ![0, 1] x13 slices_S1600000x2_S1600000x1_0_1) shapeCasts_S1600000x1_S1600000
/-- An index vector with its negative entries moved up by the table's length, as a column of start indices. -/
def wrapIdx (v : (⟨S1600000, .i32⟩ : BufTy).Contents (Elt F)) : (⟨S1600000x1, .i32⟩ : BufTy).Contents (Elt F) :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)
/-- The atom rows at each pair's second endpoint. -/
def rowsJ (x0 : (⟨S100000x75, .f32⟩ : BufTy).Contents (Elt F)) (x13 : (⟨S1600000x2, .i32⟩ : BufTy).Contents (Elt F)) :
    (⟨S1600000x75, .f32⟩ : BufTy).Contents (Elt F) :=
  Host.gather gather_S100000x75_S1600000x1_S1600000x75_1_0_n_n_0_1_175 x0 (wrapIdx (col1 x13))
/-- The atom rows at each pair's first endpoint. -/
def rowsI (x0 : (⟨S100000x75, .f32⟩ : BufTy).Contents (Elt F)) (x13 : (⟨S1600000x2, .i32⟩ : BufTy).Contents (Elt F)) :
    (⟨S1600000x75, .f32⟩ : BufTy).Contents (Elt F) :=
  Host.gather gather_S100000x75_S1600000x1_S1600000x75_1_0_n_n_0_1_175 x0 (wrapIdx (col0 x13))
/-- The per-atom sums of a message array: scatter-add into zeros at each pair's first endpoint. -/
def segSum (x13 : (⟨S1600000x2, .i32⟩ : BufTy).Contents (Elt F)) (u : (⟨S1600000x32, .f32⟩ : BufTy).Contents (Elt F)) :
    (⟨S100000x32, .f32⟩ : BufTy).Contents (Elt F) :=
  Host.scatterAdd scatter_S100000x32_S1600000x1_S1600000x32_1_0_0_1
    (broadcastInDim S100000x32 ![] bcast_S_S100000x32 (constant S_ .f32 0x00000000#32))
    (broadcastInDim S1600000x1 ![0] bcast_S1600000_S1600000x1_0 (col0 x13)) u

/-! ## What the pair kernel's region finds in its operand arrays -/

theorem V1_arg1 (c : Dev nD) : V1 m ρ c main_arg1
    = (m ((c : Thread nD τ).loc main_arg1)) := by
  show StableHlo.after hostOps0 (W0 m ρ c) (Proc.devRef .tc main_arg1) = _
  after_results_simp <;> rfl

theorem V1_v10 (c : Dev nD) : V1 m ρ c main_v10
    = rowsJ (m ((c : Thread nD τ).loc main_arg0)) (m ((c : Thread nD τ).loc main_arg13)) := by
  show StableHlo.after hostOps0 (W0 m ρ c) (Proc.devRef .tc main_v10) = _
  after_results_simp <;> rfl

theorem V1_v17 (c : Dev nD) : V1 m ρ c main_v17
    = rowsI (m ((c : Thread nD τ).loc main_arg0)) (m ((c : Thread nD τ).loc main_arg13)) := by
  show StableHlo.after hostOps0 (W0 m ρ c) (Proc.devRef .tc main_v17) = _
  after_results_simp <;> rfl

theorem V1_v19 (c : Dev nD) : V1 m ρ c main_v19
    = truncf .bf16 (extractStridedSlice S14x32 ![0, 0] (m ((c : Thread nD τ).loc main_arg2)) slices_S89x32_S14x32_0_0) bitsLt_bf16_f32 := by
  show StableHlo.after hostOps0 (W0 m ρ c) (Proc.devRef .tc main_v19) = _
  after_results_simp <;> rfl

theorem V1_v21 (c : Dev nD) : V1 m ρ c main_v21
    = truncf .bf16 (extractStridedSlice S75x32 ![14, 0] (m ((c : Thread nD τ).loc main_arg2)) slices_S89x32_S75x32_14_0) bitsLt_bf16_f32 := by
  show StableHlo.after hostOps0 (W0 m ρ c) (Proc.devRef .tc main_v21) = _
  after_results_simp <;> rfl

theorem V1_v32 (c : Dev nD) : V1 m ρ c main_v32
    = shapeCast S1x32 (m ((c : Thread nD τ).loc main_arg3)) shapeCasts_S32_S1x32 := by
  show StableHlo.after hostOps0 (W0 m ρ c) (Proc.devRef .tc main_v32) = _
  after_results_simp <;> rfl

theorem V1_v23 (c : Dev nD) : V1 m ρ c main_v23
    = truncf .bf16 (extractStridedSlice S14x50 ![0, 0] (m ((c : Thread nD τ).loc main_arg8)) slices_S89x50_S14x50_0_0) bitsLt_bf16_f32 := by
  show StableHlo.after hostOps0 (W0 m ρ c) (Proc.devRef .tc main_v23) = _
  after_results_simp <;> rfl

theorem V1_v25 (c : Dev nD) : V1 m ρ c main_v25
    = truncf .bf16 (extractStridedSlice S75x50 ![14, 0] (m ((c : Thread nD τ).loc main_arg8)) slices_S89x50_S75x50_14_0) bitsLt_bf16_f32 := by
  show StableHlo.after hostOps0 (W0 m ρ c) (Proc.devRef .tc main_v25) = _
  after_results_simp <;> rfl

theorem V1_v33 (c : Dev nD) : V1 m ρ c main_v33
    = shapeCast S1x50 (m ((c : Thread nD τ).loc main_arg9)) shapeCasts_S50_S1x50 := by
  show StableHlo.after hostOps0 (W0 m ρ c) (Proc.devRef .tc main_v33) = _
  after_results_simp <;> rfl

theorem V1_v26 (c : Dev nD) : V1 m ρ c main_v26
    = truncf .bf16 (m ((c : Thread nD τ).loc main_arg10)) bitsLt_bf16_f32 := by
  show StableHlo.after hostOps0 (W0 m ρ c) (Proc.devRef .tc main_v26) = _
  after_results_simp <;> rfl

theorem V1_v34 (c : Dev nD) : V1 m ρ c main_v34
    = shapeCast S1x50 (m ((c : Thread nD τ).loc main_arg11)) shapeCasts_S50_S1x50 := by
  show StableHlo.after hostOps0 (W0 m ρ c) (Proc.devRef .tc main_v34) = _
  after_results_simp <;> rfl

/-! ## What the atom kernel's region finds in its operand arrays -/

theorem V3_arg0 (c : Dev nD) : V3 m ρ c main_arg0
    = (m ((c : Thread nD τ).loc main_arg0)) := by
  have e1 : W3 m ρ c (Proc.devRef .tc main_arg0) = W2 m ρ c (Proc.devRef .tc main_arg0) :=
    StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
  have e2 : W2 m ρ c (Proc.devRef .tc main_arg0) = W1 m ρ c (Proc.devRef .tc main_arg0) := W2_of_ne m ρ c main_arg0 (by decide)
  refine (e1.trans e2).trans ?_
  show StableHlo.after hostOps0 (W0 m ρ c) (Proc.devRef .tc main_arg0) = _
  after_results_simp <;> rfl

theorem V3_v28 (c : Dev nD) : V3 m ρ c main_v28
    = truncf .bf16 (extractStridedSlice S75x50 ![0, 0] (m ((c : Thread nD τ).loc main_arg4)) slices_S107x50_S75x50_0_0) bitsLt_bf16_f32 := by
  have e1 : W3 m ρ c (Proc.devRef .tc main_v28) = W2 m ρ c (Proc.devRef .tc main_v28) :=
    StableHlo.after_of_forall_not_mem (b := Proc.devRef .tc main_v28) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
  have e2 : W2 m ρ c (Proc.devRef .tc main_v28) = W1 m ρ c (Proc.devRef .tc main_v28) := W2_of_ne m ρ c main_v28 (by decide)
  refine (e1.trans e2).trans ?_
  show StableHlo.after hostOps0 (W0 m ρ c) (Proc.devRef .tc main_v28) = _
  after_results_simp <;> rfl

theorem V3_v30 (c : Dev nD) : V3 m ρ c main_v30
    = truncf .bf16 (extractStridedSlice S32x50 ![75, 0] (m ((c : Thread nD τ).loc main_arg4)) slices_S107x50_S32x50_75_0) bitsLt_bf16_f32 := by
  have e1 : W3 m ρ c (Proc.devRef .tc main_v30) = W2 m ρ c (Proc.devRef .tc main_v30) :=
    StableHlo.after_of_forall_not_mem (b := Proc.devRef .tc main_v30) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
  have e2 : W2 m ρ c (Proc.devRef .tc main_v30) = W1 m ρ c (Proc.devRef .tc main_v30) := W2_of_ne m ρ c main_v30 (by decide)
  refine (e1.trans e2).trans ?_
  show StableHlo.after hostOps0 (W0 m ρ c) (Proc.devRef .tc main_v30) = _
  after_results_simp <;> rfl

theorem V3_v35 (c : Dev nD) : V3 m ρ c main_v35
    = shapeCast S1x50 (m ((c : Thread nD τ).loc main_arg5)) shapeCasts_S50_S1x50 := by
  have e1 : W3 m ρ c (Proc.devRef .tc main_v35) = W2 m ρ c (Proc.devRef .tc main_v35) :=
    StableHlo.after_of_forall_not_mem (b := Proc.devRef .tc main_v35) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
  have e2 : W2 m ρ c (Proc.devRef .tc main_v35) = W1 m ρ c (Proc.devRef .tc main_v35) := W2_of_ne m ρ c main_v35 (by decide)
  refine (e1.trans e2).trans ?_
  show StableHlo.after hostOps0 (W0 m ρ c) (Proc.devRef .tc main_v35) = _
  after_results_simp <;> rfl

theorem V3_v31 (c : Dev nD) : V3 m ρ c main_v31
    = truncf .bf16 (m ((c : Thread nD τ).loc main_arg6)) bitsLt_bf16_f32 := by
  have e1 : W3 m ρ c (Proc.devRef .tc main_v31) = W2 m ρ c (Proc.devRef .tc main_v31) :=
    StableHlo.after_of_forall_not_mem (b := Proc.devRef .tc main_v31) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
  have e2 : W2 m ρ c (Proc.devRef .tc main_v31) = W1 m ρ c (Proc.devRef .tc main_v31) := W2_of_ne m ρ c main_v31 (by decide)
  refine (e1.trans e2).trans ?_
  show StableHlo.after hostOps0 (W0 m ρ c) (Proc.devRef .tc main_v31) = _
  after_results_simp <;> rfl

theorem V3_v36 (c : Dev nD) : V3 m ρ c main_v36
    = shapeCast S1x50 (m ((c : Thread nD τ).loc main_arg7)) shapeCasts_S50_S1x50 := by
  have e1 : W3 m ρ c (Proc.devRef .tc main_v36) = W2 m ρ c (Proc.devRef .tc main_v36) :=
    StableHlo.after_of_forall_not_mem (b := Proc.devRef .tc main_v36) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
  have e2 : W2 m ρ c (Proc.devRef .tc main_v36) = W1 m ρ c (Proc.devRef .tc main_v36) := W2_of_ne m ρ c main_v36 (by decide)
  refine (e1.trans e2).trans ?_
  show StableHlo.after hostOps0 (W0 m ρ c) (Proc.devRef .tc main_v36) = _
  after_results_simp <;> rfl

/-- The summed messages the atom kernel reads: the host's scatter-add, between the two regions, of the pair kernel's
    first output as its region left it. -/
theorem V3_v40 (c : Dev nD) : V3 m ρ c main_v40 = segSum (m ((c : Thread nD τ).loc main_arg13)) ((dat0 (V1 m ρ) c).arrAt 11 cfg0.N) := by
  have e0 : W2 m ρ c (Proc.devRef .tc main_v1) = col0 (m ((c : Thread nD τ).loc main_arg13)) := by
    refine (W2_of_ne m ρ c main_v1 (by decide)).trans ?_
    show StableHlo.after hostOps0 (W0 m ρ c) (Proc.devRef .tc main_v1) = _
    after_results_simp <;> rfl
  have e1 : W2 m ρ c (Proc.devRef .tc main_v37_0) = (dat0 (V1 m ρ) c).arrAt 11 cfg0.N := W2_arr m ρ c 11
  show StableHlo.after hostOps1 (W2 m ρ c) (Proc.devRef .tc main_v40) = _
  after_results_simp
  rw [e0, e1]
  rfl

/-! ## The two result buffers at the last boundary -/

/-- The new atom features are what the atom kernel's region leaves in its output array. -/
theorem res_v41 (c : Dev nD) : W4 m ρ c (Proc.devRef .tc main_v41) = (dat1 (V3 m ρ) c).arrAt 7 cfg1.N := W4_arr m ρ c 7

/-- The new pair features are what the pair kernel's region leaves in its second output array: nothing after that
    region writes the buffer. -/
theorem res_v37_1 (c : Dev nD) : W4 m ρ c (Proc.devRef .tc main_v37_1) = (dat0 (V1 m ρ) c).arrAt 12 cfg0.N :=
  calc W4 m ρ c (Proc.devRef .tc main_v37_1)
    _ = W3 m ρ c (Proc.devRef .tc main_v37_1) := W4_of_ne m ρ c main_v37_1 (by decide)
    _ = W2 m ρ c (Proc.devRef .tc main_v37_1) := StableHlo.after_of_forall_not_mem (b := Proc.devRef .tc main_v37_1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (V1 m ρ) c).arrAt 12 cfg0.N := W2_arr m ρ c 12

end Cert.KernelIdeal.Host

end
-- ==== Proof.Spec.lean ====
/-
  The layer's arithmetic, element by element, over the extended reals.

  Every output element of the molecular convolution layer is a rectified affine form of a few dot products:
  a "two-part dense" element relu(Σₖ x₁ₖ·w₁ₖ + Σₖ x₂ₖ·w₂ₖ + b) — the dot product of a concatenated feature row with a
  weight column, written as the sum of the two parts' dot products —, a "dense" element relu(Σₖ xₖ·wₖ + b), and the
  rectified sum of two such elements. The pair → atom message A_paj, the new pair features and the new atom features are
  these forms of the argument arrays, of the rows gathered from the atom features (one gather per endpoint of a pair) and
  of the per-atom sums of messages. The one law used is that a finite sum over a concatenated axis splits into the sums
  over its two parts, which holds in any commutative monoid and so on the extended reals without any finiteness.
-/
import Idealize.ShloMosaic.Lib.ValueIdx
import Mathlib.Algebra.BigOperators.Fin

noncomputable section

open scoped BigOperators

namespace Cert.Spec

open Idealize.ShloMosaic Idealize.ShloMosaic.ValueIdx

/-- relu(Σ x₁·w₁ + Σ x₂·w₂ + b): one element of a dense layer applied to a concatenated row. -/
def dense2 {K1 K2 : Nat} (x1 w1 : Fin K1 → EReal) (x2 w2 : Fin K2 → EReal) (b : EReal) : EReal :=
  max (((∑ k, x1 k * w1 k) + ∑ k, x2 k * w2 k) + b) 0

/-- relu(Σ x·w + b): one element of a dense layer. -/
def dense1 {K : Nat} (x w : Fin K → EReal) (b : EReal) : EReal :=
  max ((∑ k, x k * w k) + b) 0

/-- relu(a + b): how two branches are joined. -/
def join (a b : EReal) : EReal := max (a + b) 0

/-- A sum over an axis of extent K₁ + K₂ is the sum over its first K₁ positions plus the sum over the other K₂. -/
theorem sum_concat {M : Type*} [AddCommMonoid M] {K1 K2 K : Nat} (h : K1 + K2 = K) (f : Fin K → M) :
    ∑ k, f k = (∑ k : Fin K1, f ⟨k.val, by omega⟩) + ∑ k : Fin K2, f ⟨K1 + k.val, by omega⟩ := by
  subst h
  rw [Fin.sum_univ_add]
  rfl

/-- The dot product of a concatenated row with a weight column is a two-part dense element's inner sum: the element
    of a dense layer on a concatenated input, from the sum over the joined axis. -/
theorem dense_concat {K1 K2 K : Nat} (h : K1 + K2 = K) (x w : Fin K → EReal) (b : EReal) :
    max ((∑ k, x k * w k) + b) 0
      = dense2 (fun k : Fin K1 => x ⟨k.val, by omega⟩) (fun k => w ⟨k.val, by omega⟩)
          (fun k : Fin K2 => x ⟨K1 + k.val, by omega⟩) (fun k => w ⟨K1 + k.val, by omega⟩) b := by
  unfold dense2
  rw [sum_concat h (fun k => x k * w k)]

/-! ## The arrays -/

/-- A rank-2 array of extended reals. -/
abbrev A2 (a b : Nat) : Type := (⟨2, ![a, b]⟩ : Shape).Idx → EReal
/-- A rank-1 array of extended reals. -/
abbrev A1 (a : Nat) : Type := (⟨1, ![a]⟩ : Shape).Idx → EReal

/-- The pair → atom message of pair `r`, feature `j`: the dense layer `W_pa`, `b_pa` on (pair features ‖ the second
    endpoint's atom features). -/
def gmsg (pf : A2 1600000 14) (aj : A2 1600000 75) (Wpa : A2 89 32) (bpa : A1 32) (r : Fin 1600000) (j : Fin 32) : EReal :=
  dense2 (fun k : Fin 14 => pf (ix2 r k)) (fun k => Wpa (ix2 ⟨0 + k.val, by omega⟩ j))
    (fun k : Fin 75 => aj (ix2 r k)) (fun k => Wpa (ix2 ⟨14 + k.val, by omega⟩ j)) (bpa (ix1 j))
/-- … as an array. -/
def Gmsg (pf : A2 1600000 14) (aj : A2 1600000 75) (Wpa : A2 89 32) (bpa : A1 32) : A2 1600000 32 :=
  fun i => gmsg pf aj Wpa bpa (i 0) (i 1)

/-- The new features of pair `r`: the dense layer `W_ap`, `b_ap` on (pair features ‖ the sum of the two endpoints' atom
    features) joined with the dense layer `W_pp`, `b_pp` on the pair features. -/
def gpair (pf : A2 1600000 14) (ai aj : A2 1600000 75) (Wap : A2 89 50) (bap : A1 50) (Wpp : A2 14 50) (bpp : A1 50)
    (r : Fin 1600000) (j : Fin 50) : EReal :=
  join
    (dense2 (fun k : Fin 14 => pf (ix2 r k)) (fun k => Wap (ix2 ⟨0 + k.val, by omega⟩ j))
      (fun k : Fin 75 => ai (ix2 r k) + aj (ix2 r k)) (fun k => Wap (ix2 ⟨14 + k.val, by omega⟩ j)) (bap (ix1 j)))
    (dense1 (fun k : Fin 14 => pf (ix2 r k)) (fun k => Wpp (ix2 k j)) (bpp (ix1 j)))
/-- … as an array. -/
def Gpair (pf : A2 1600000 14) (ai aj : A2 1600000 75) (Wap : A2 89 50) (bap : A1 50) (Wpp : A2 14 50) (bpp : A1 50) :
    A2 1600000 50 :=
  fun i => gpair pf ai aj Wap bap Wpp bpp (i 0) (i 1)

/-- The new features of atom `r`: the dense layer `W_ao`, `b_ao` on (atom features ‖ the atom's summed messages) joined
    with the dense layer `W_aa`, `b_aa` on the atom features. -/
def gatom (af : A2 100000 75) (sm : A2 100000 32) (Wao : A2 107 50) (bao : A1 50) (Waa : A2 75 50) (baa : A1 50)
    (r : Fin 100000) (j : Fin 50) : EReal :=
  join
    (dense2 (fun k : Fin 75 => af (ix2 r k)) (fun k => Wao (ix2 ⟨0 + k.val, by omega⟩ j))
      (fun k : Fin 32 => sm (ix2 r k)) (fun k => Wao (ix2 ⟨75 + k.val, by omega⟩ j)) (bao (ix1 j)))
    (dense1 (fun k : Fin 75 => af (ix2 r k)) (fun k => Waa (ix2 k j)) (baa (ix1 j)))
/-- … as an array. -/
def Gatom (af : A2 100000 75) (sm : A2 100000 32) (Wao : A2 107 50) (bao : A1 50) (Waa : A2 75 50) (baa : A1 50) :
    A2 100000 50 :=
  fun i => gatom af sm Wao bao Waa baa (i 0) (i 1)

/-! ## The same elements from a kernel region's own operands

A kernel region receives each weight matrix already cut in its two row ranges and each bias as a one-row matrix; its
output element is the same form over those operands. -/

/-- Region of the pair kernel, first output (the messages): operands pair features, second-endpoint atom rows, the two
    row ranges of the weight, the bias row. -/
def rmsg (a0 : A2 1600000 14) (a1 : A2 1600000 75) (w3 : A2 14 32) (w4 : A2 75 32) (b5 : A2 1 32)
    (r : Fin 1600000) (j : Fin 32) : EReal :=
  dense2 (fun k : Fin 14 => a0 (ix2 r k)) (fun k => w3 (ix2 k j)) (fun k : Fin 75 => a1 (ix2 r k)) (fun k => w4 (ix2 k j))
    (b5 (ix2 (0 : Fin 1) j))
/-- … as an array. -/
def Rmsg (a0 : A2 1600000 14) (a1 : A2 1600000 75) (w3 : A2 14 32) (w4 : A2 75 32) (b5 : A2 1 32) : A2 1600000 32 :=
  fun i => rmsg a0 a1 w3 w4 b5 (i 0) (i 1)

/-- Region of the pair kernel, second output (the new pair features): operands pair features, second-endpoint rows
    `a1`, first-endpoint rows `a2` (the kernel adds them as `a2 + a1`), the two row ranges of `W_ap`, its bias row,
    `W_pp` and its bias row. -/
def rpair (a0 : A2 1600000 14) (a1 a2 : A2 1600000 75) (w6 : A2 14 50) (w7 : A2 75 50) (b8 : A2 1 50) (w9 : A2 14 50)
    (b10 : A2 1 50) (r : Fin 1600000) (j : Fin 50) : EReal :=
  join
    (dense2 (fun k : Fin 14 => a0 (ix2 r k)) (fun k => w6 (ix2 k j)) (fun k : Fin 75 => a2 (ix2 r k) + a1 (ix2 r k))
      (fun k => w7 (ix2 k j)) (b8 (ix2 (0 : Fin 1) j)))
    (dense1 (fun k : Fin 14 => a0 (ix2 r k)) (fun k => w9 (ix2 k j)) (b10 (ix2 (0 : Fin 1) j)))
/-- … as an array. -/
def Rpair (a0 : A2 1600000 14) (a1 a2 : A2 1600000 75) (w6 : A2 14 50) (w7 : A2 75 50) (b8 : A2 1 50) (w9 : A2 14 50)
    (b10 : A2 1 50) : A2 1600000 50 :=
  fun i => rpair a0 a1 a2 w6 w7 b8 w9 b10 (i 0) (i 1)

/-- Region of the atom kernel: operands atom features, summed messages, the two row ranges of `W_ao`, its bias row,
    `W_aa` and its bias row. -/
def ratom (a0 : A2 100000 75) (a1 : A2 100000 32) (w2 : A2 75 50) (w3 : A2 32 50) (b4 : A2 1 50) (w5 : A2 75 50)
    (b6 : A2 1 50) (r : Fin 100000) (j : Fin 50) : EReal :=
  join
    (dense2 (fun k : Fin 75 => a0 (ix2 r k)) (fun k => w2 (ix2 k j)) (fun k : Fin 32 => a1 (ix2 r k)) (fun k => w3 (ix2 k j))
      (b4 (ix2 (0 : Fin 1) j)))
    (dense1 (fun k : Fin 75 => a0 (ix2 r k)) (fun k => w5 (ix2 k j)) (b6 (ix2 (0 : Fin 1) j)))
/-- … as an array. -/
def Ratom (a0 : A2 100000 75) (a1 : A2 100000 32) (w2 : A2 75 50) (w3 : A2 32 50) (b4 : A2 1 50) (w5 : A2 75 50)
    (b6 : A2 1 50) : A2 100000 50 :=
  fun i => ratom a0 a1 w2 w3 b4 w5 b6 (i 0) (i 1)

end Cert.Spec

end
-- ==== Proof.Reg0.lean ====
import proofs.«114345_j14705968022035_1_alg».proof.Proof.Gen.KernelIdeal.Frame
import proofs.«114345_j14705968022035_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg0

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

/-! ## The four contractions of the pair kernel, each read at an output index

Each matrix product contracts the left operand's columns with the right operand's rows, so at the output index
`(p, q)` it is the sum over `k` of the left operand at `(p, k)` times the right operand at `(k, q)`. -/

theorem lhs_14x32_0 (i : S4000x32.Idx) (q : dot_S4000x14_S14x32_S4000x32_1_0_0_1_n_n.contr.Idx) :
    (dot_S4000x14_S14x32_S4000x32_1_0_0_1_n_n.lhsIdx i q 0).val = (i 0).val := by
  unfold DotDims.lhsIdx
  rw [dif_neg (show ¬(0 : Fin S4000x14.rank) ∈ dot_S4000x14_S14x32_S4000x32_1_0_0_1_n_n.lhsBatch by decide), dif_pos (show (0 : Fin S4000x14.rank) ∈ dot_S4000x14_S14x32_S4000x32_1_0_0_1_n_n.lhsNonContracting by decide)]
  rfl
theorem lhs_14x32_1 (i : S4000x32.Idx) (q : dot_S4000x14_S14x32_S4000x32_1_0_0_1_n_n.contr.Idx) :
    (dot_S4000x14_S14x32_S4000x32_1_0_0_1_n_n.lhsIdx i q 1).val = (q ⟨0, by decide⟩).val :=
  dot_S4000x14_S14x32_S4000x32_1_0_0_1_n_n.lhsIdx_val_of_single rfl i q
theorem rhs_14x32_0 (i : S4000x32.Idx) (q : dot_S4000x14_S14x32_S4000x32_1_0_0_1_n_n.contr.Idx) :
    (dot_S4000x14_S14x32_S4000x32_1_0_0_1_n_n.rhsIdx i q 0).val = (q ⟨0, by decide⟩).val :=
  dot_S4000x14_S14x32_S4000x32_1_0_0_1_n_n.rhsIdx_val_of_single rfl i q
theorem rhs_14x32_1 (i : S4000x32.Idx) (q : dot_S4000x14_S14x32_S4000x32_1_0_0_1_n_n.contr.Idx) :
    (dot_S4000x14_S14x32_S4000x32_1_0_0_1_n_n.rhsIdx i q 1).val = (i 1).val := by
  unfold DotDims.rhsIdx
  rw [dif_neg (show ¬(1 : Fin S14x32.rank) ∈ dot_S4000x14_S14x32_S4000x32_1_0_0_1_n_n.rhsBatch by decide), dif_pos (show (1 : Fin S14x32.rank) ∈ dot_S4000x14_S14x32_S4000x32_1_0_0_1_n_n.rhsNonContracting by decide)]
  rfl

/-- [4000,14] times [14,32] into the zero accumulator, at `(p, q)`. -/
theorem matmul_14x32 (l : FVec Ideal S4000x14 .bf16) (r : FVec Ideal S14x32 .bf16) (p : Fin 4000) (q : Fin 32) :
    matmul dot_S4000x14_S14x32_S4000x32_1_0_0_1_n_n none l r (constant (F := Ideal) S4000x32 .f32 0x00000000#32) (ix2 p q)
      = ∑ k : Fin 14, l (ix2 p k) * r (ix2 k q) := by
  simp only [matmul]
  rw [Ideal.matmul_constant_zero_apply, ← Equiv.sum_comp (contrEquiv1 dot_S4000x14_S14x32_S4000x32_1_0_0_1_n_n 14 rfl rfl).symm]
  refine Finset.sum_congr rfl fun k _ => ?_
  have hk := contrEquiv1_symm_val dot_S4000x14_S14x32_S4000x32_1_0_0_1_n_n 14 rfl rfl k
  have el : dot_S4000x14_S14x32_S4000x32_1_0_0_1_n_n.lhsIdx (ix2 p q) ((contrEquiv1 dot_S4000x14_S14x32_S4000x32_1_0_0_1_n_n 14 rfl rfl).symm k) = ix2 p k := funext fun a => Fin.ext (by
    match a with
    | ⟨0, _⟩ => exact lhs_14x32_0 _ _
    | ⟨1, _⟩ => exact (lhs_14x32_1 _ _).trans hk)
  have er : dot_S4000x14_S14x32_S4000x32_1_0_0_1_n_n.rhsIdx (ix2 p q) ((contrEquiv1 dot_S4000x14_S14x32_S4000x32_1_0_0_1_n_n 14 rfl rfl).symm k) = ix2 k q := funext fun a => Fin.ext (by
    match a with
    | ⟨0, _⟩ => exact (rhs_14x32_0 _ _).trans hk
    | ⟨1, _⟩ => exact rhs_14x32_1 _ _)
  rw [el, er]

theorem lhs_75x32_0 (i : S4000x32.Idx) (q : dot_S4000x75_S75x32_S4000x32_1_0_0_1_n_n.contr.Idx) :
    (dot_S4000x75_S75x32_S4000x32_1_0_0_1_n_n.lhsIdx i q 0).val = (i 0).val := by
  unfold DotDims.lhsIdx
  rw [dif_neg (show ¬(0 : Fin S4000x75.rank) ∈ dot_S4000x75_S75x32_S4000x32_1_0_0_1_n_n.lhsBatch by decide), dif_pos (show (0 : Fin S4000x75.rank) ∈ dot_S4000x75_S75x32_S4000x32_1_0_0_1_n_n.lhsNonContracting by decide)]
  rfl
theorem lhs_75x32_1 (i : S4000x32.Idx) (q : dot_S4000x75_S75x32_S4000x32_1_0_0_1_n_n.contr.Idx) :
    (dot_S4000x75_S75x32_S4000x32_1_0_0_1_n_n.lhsIdx i q 1).val = (q ⟨0, by decide⟩).val :=
  dot_S4000x75_S75x32_S4000x32_1_0_0_1_n_n.lhsIdx_val_of_single rfl i q
theorem rhs_75x32_0 (i : S4000x32.Idx) (q : dot_S4000x75_S75x32_S4000x32_1_0_0_1_n_n.contr.Idx) :
    (dot_S4000x75_S75x32_S4000x32_1_0_0_1_n_n.rhsIdx i q 0).val = (q ⟨0, by decide⟩).val :=
  dot_S4000x75_S75x32_S4000x32_1_0_0_1_n_n.rhsIdx_val_of_single rfl i q
theorem rhs_75x32_1 (i : S4000x32.Idx) (q : dot_S4000x75_S75x32_S4000x32_1_0_0_1_n_n.contr.Idx) :
    (dot_S4000x75_S75x32_S4000x32_1_0_0_1_n_n.rhsIdx i q 1).val = (i 1).val := by
  unfold DotDims.rhsIdx
  rw [dif_neg (show ¬(1 : Fin S75x32.rank) ∈ dot_S4000x75_S75x32_S4000x32_1_0_0_1_n_n.rhsBatch by decide), dif_pos (show (1 : Fin S75x32.rank) ∈ dot_S4000x75_S75x32_S4000x32_1_0_0_1_n_n.rhsNonContracting by decide)]
  rfl

/-- [4000,75] times [75,32] into the zero accumulator, at `(p, q)`. -/
theorem matmul_75x32 (l : FVec Ideal S4000x75 .bf16) (r : FVec Ideal S75x32 .bf16) (p : Fin 4000) (q : Fin 32) :
    matmul dot_S4000x75_S75x32_S4000x32_1_0_0_1_n_n none l r (constant (F := Ideal) S4000x32 .f32 0x00000000#32) (ix2 p q)
      = ∑ k : Fin 75, l (ix2 p k) * r (ix2 k q) := by
  simp only [matmul]
  rw [Ideal.matmul_constant_zero_apply, ← Equiv.sum_comp (contrEquiv1 dot_S4000x75_S75x32_S4000x32_1_0_0_1_n_n 75 rfl rfl).symm]
  refine Finset.sum_congr rfl fun k _ => ?_
  have hk := contrEquiv1_symm_val dot_S4000x75_S75x32_S4000x32_1_0_0_1_n_n 75 rfl rfl k
  have el : dot_S4000x75_S75x32_S4000x32_1_0_0_1_n_n.lhsIdx (ix2 p q) ((contrEquiv1 dot_S4000x75_S75x32_S4000x32_1_0_0_1_n_n 75 rfl rfl).symm k) = ix2 p k := funext fun a => Fin.ext (by
    match a with
    | ⟨0, _⟩ => exact lhs_75x32_0 _ _
    | ⟨1, _⟩ => exact (lhs_75x32_1 _ _).trans hk)
  have er : dot_S4000x75_S75x32_S4000x32_1_0_0_1_n_n.rhsIdx (ix2 p q) ((contrEquiv1 dot_S4000x75_S75x32_S4000x32_1_0_0_1_n_n 75 rfl rfl).symm k) = ix2 k q := funext fun a => Fin.ext (by
    match a with
    | ⟨0, _⟩ => exact (rhs_75x32_0 _ _).trans hk
    | ⟨1, _⟩ => exact rhs_75x32_1 _ _)
  rw [el, er]

theorem lhs_14x50_0 (i : S4000x50.Idx) (q : dot_S4000x14_S14x50_S4000x50_1_0_0_1_n_n.contr.Idx) :
    (dot_S4000x14_S14x50_S4000x50_1_0_0_1_n_n.lhsIdx i q 0).val = (i 0).val := by
  unfold DotDims.lhsIdx
  rw [dif_neg (show ¬(0 : Fin S4000x14.rank) ∈ dot_S4000x14_S14x50_S4000x50_1_0_0_1_n_n.lhsBatch by decide), dif_pos (show (0 : Fin S4000x14.rank) ∈ dot_S4000x14_S14x50_S4000x50_1_0_0_1_n_n.lhsNonContracting by decide)]
  rfl
theorem lhs_14x50_1 (i : S4000x50.Idx) (q : dot_S4000x14_S14x50_S4000x50_1_0_0_1_n_n.contr.Idx) :
    (dot_S4000x14_S14x50_S4000x50_1_0_0_1_n_n.lhsIdx i q 1).val = (q ⟨0, by decide⟩).val :=
  dot_S4000x14_S14x50_S4000x50_1_0_0_1_n_n.lhsIdx_val_of_single rfl i q
theorem rhs_14x50_0 (i : S4000x50.Idx) (q : dot_S4000x14_S14x50_S4000x50_1_0_0_1_n_n.contr.Idx) :
    (dot_S4000x14_S14x50_S4000x50_1_0_0_1_n_n.rhsIdx i q 0).val = (q ⟨0, by decide⟩).val :=
  dot_S4000x14_S14x50_S4000x50_1_0_0_1_n_n.rhsIdx_val_of_single rfl i q
theorem rhs_14x50_1 (i : S4000x50.Idx) (q : dot_S4000x14_S14x50_S4000x50_1_0_0_1_n_n.contr.Idx) :
    (dot_S4000x14_S14x50_S4000x50_1_0_0_1_n_n.rhsIdx i q 1).val = (i 1).val := by
  unfold DotDims.rhsIdx
  rw [dif_neg (show ¬(1 : Fin S14x50.rank) ∈ dot_S4000x14_S14x50_S4000x50_1_0_0_1_n_n.rhsBatch by decide), dif_pos (show (1 : Fin S14x50.rank) ∈ dot_S4000x14_S14x50_S4000x50_1_0_0_1_n_n.rhsNonContracting by decide)]
  rfl

/-- [4000,14] times [14,50] into the zero accumulator, at `(p, q)`. -/
theorem matmul_14x50 (l : FVec Ideal S4000x14 .bf16) (r : FVec Ideal S14x50 .bf16) (p : Fin 4000) (q : Fin 50) :
    matmul dot_S4000x14_S14x50_S4000x50_1_0_0_1_n_n none l r (constant (F := Ideal) S4000x50 .f32 0x00000000#32) (ix2 p q)
      = ∑ k : Fin 14, l (ix2 p k) * r (ix2 k q) := by
  simp only [matmul]
  rw [Ideal.matmul_constant_zero_apply, ← Equiv.sum_comp (contrEquiv1 dot_S4000x14_S14x50_S4000x50_1_0_0_1_n_n 14 rfl rfl).symm]
  refine Finset.sum_congr rfl fun k _ => ?_
  have hk := contrEquiv1_symm_val dot_S4000x14_S14x50_S4000x50_1_0_0_1_n_n 14 rfl rfl k
  have el : dot_S4000x14_S14x50_S4000x50_1_0_0_1_n_n.lhsIdx (ix2 p q) ((contrEquiv1 dot_S4000x14_S14x50_S4000x50_1_0_0_1_n_n 14 rfl rfl).symm k) = ix2 p k := funext fun a => Fin.ext (by
    match a with
    | ⟨0, _⟩ => exact lhs_14x50_0 _ _
    | ⟨1, _⟩ => exact (lhs_14x50_1 _ _).trans hk)
  have er : dot_S4000x14_S14x50_S4000x50_1_0_0_1_n_n.rhsIdx (ix2 p q) ((contrEquiv1 dot_S4000x14_S14x50_S4000x50_1_0_0_1_n_n 14 rfl rfl).symm k) = ix2 k q := funext fun a => Fin.ext (by
    match a with
    | ⟨0, _⟩ => exact (rhs_14x50_0 _ _).trans hk
    | ⟨1, _⟩ => exact rhs_14x50_1 _ _)
  rw [el, er]

theorem lhs_75x50_0 (i : S4000x50.Idx) (q : dot_S4000x75_S75x50_S4000x50_1_0_0_1_n_n.contr.Idx) :
    (dot_S4000x75_S75x50_S4000x50_1_0_0_1_n_n.lhsIdx i q 0).val = (i 0).val := by
  unfold DotDims.lhsIdx
  rw [dif_neg (show ¬(0 : Fin S4000x75.rank) ∈ dot_S4000x75_S75x50_S4000x50_1_0_0_1_n_n.lhsBatch by decide), dif_pos (show (0 : Fin S4000x75.rank) ∈ dot_S4000x75_S75x50_S4000x50_1_0_0_1_n_n.lhsNonContracting by decide)]
  rfl
theorem lhs_75x50_1 (i : S4000x50.Idx) (q : dot_S4000x75_S75x50_S4000x50_1_0_0_1_n_n.contr.Idx) :
    (dot_S4000x75_S75x50_S4000x50_1_0_0_1_n_n.lhsIdx i q 1).val = (q ⟨0, by decide⟩).val :=
  dot_S4000x75_S75x50_S4000x50_1_0_0_1_n_n.lhsIdx_val_of_single rfl i q
theorem rhs_75x50_0 (i : S4000x50.Idx) (q : dot_S4000x75_S75x50_S4000x50_1_0_0_1_n_n.contr.Idx) :
    (dot_S4000x75_S75x50_S4000x50_1_0_0_1_n_n.rhsIdx i q 0).val = (q ⟨0, by decide⟩).val :=
  dot_S4000x75_S75x50_S4000x50_1_0_0_1_n_n.rhsIdx_val_of_single rfl i q
theorem rhs_75x50_1 (i : S4000x50.Idx) (q : dot_S4000x75_S75x50_S4000x50_1_0_0_1_n_n.contr.Idx) :
    (dot_S4000x75_S75x50_S4000x50_1_0_0_1_n_n.rhsIdx i q 1).val = (i 1).val := by
  unfold DotDims.rhsIdx
  rw [dif_neg (show ¬(1 : Fin S75x50.rank) ∈ dot_S4000x75_S75x50_S4000x50_1_0_0_1_n_n.rhsBatch by decide), dif_pos (show (1 : Fin S75x50.rank) ∈ dot_S4000x75_S75x50_S4000x50_1_0_0_1_n_n.rhsNonContracting by decide)]
  rfl

/-- [4000,75] times [75,50] into the zero accumulator, at `(p, q)`. -/
theorem matmul_75x50 (l : FVec Ideal S4000x75 .bf16) (r : FVec Ideal S75x50 .bf16) (p : Fin 4000) (q : Fin 50) :
    matmul dot_S4000x75_S75x50_S4000x50_1_0_0_1_n_n none l r (constant (F := Ideal) S4000x50 .f32 0x00000000#32) (ix2 p q)
      = ∑ k : Fin 75, l (ix2 p k) * r (ix2 k q) := by
  simp only [matmul]
  rw [Ideal.matmul_constant_zero_apply, ← Equiv.sum_comp (contrEquiv1 dot_S4000x75_S75x50_S4000x50_1_0_0_1_n_n 75 rfl rfl).symm]
  refine Finset.sum_congr rfl fun k _ => ?_
  have hk := contrEquiv1_symm_val dot_S4000x75_S75x50_S4000x50_1_0_0_1_n_n 75 rfl rfl k
  have el : dot_S4000x75_S75x50_S4000x50_1_0_0_1_n_n.lhsIdx (ix2 p q) ((contrEquiv1 dot_S4000x75_S75x50_S4000x50_1_0_0_1_n_n 75 rfl rfl).symm k) = ix2 p k := funext fun a => Fin.ext (by
    match a with
    | ⟨0, _⟩ => exact lhs_75x50_0 _ _
    | ⟨1, _⟩ => exact (lhs_75x50_1 _ _).trans hk)
  have er : dot_S4000x75_S75x50_S4000x50_1_0_0_1_n_n.rhsIdx (ix2 p q) ((contrEquiv1 dot_S4000x75_S75x50_S4000x50_1_0_0_1_n_n 75 rfl rfl).symm k) = ix2 k q := funext fun a => Fin.ext (by
    match a with
    | ⟨0, _⟩ => exact (rhs_75x50_0 _ _).trans hk
    | ⟨1, _⟩ => exact rhs_75x50_1 _ _)
  rw [el, er]

/-! ## The two payloads at an index -/

/-- The zero word the body rectifies against is the extended real `0`. -/
theorem zero_word : (FloatOps.ofBits (F := Ideal) .f32 0x00000000#32 : Ideal .f32) = 0 := Ideal.ofBits_zero_f32

/-- The message payload at `(p, q)`: the two-part dense element of the pair's features and its second endpoint's rows. -/
theorem pay9_apply (x0 : Vec Ideal S4000x14 .f32) (x1 : Vec Ideal S4000x75 .f32) (x3 : Vec Ideal S14x32 .bf16)
    (x4 : Vec Ideal S75x32 .bf16) (x5 : Vec Ideal S1x32 .f32) (p : Fin 4000) (q : Fin 32) :
    (k0_pay9 (F := Ideal) x0 x1 x3 x4 x5) (ix2 p q)
      = Cert.Spec.dense2 (fun k : Fin 14 => x0 (ix2 p k)) (fun k => x3 (ix2 k q)) (fun k : Fin 75 => x1 (ix2 p k))
          (fun k => x4 (ix2 k q)) (x5 (ix2 (0 : Fin 1) q)) := by
  unfold k0_pay9 k0_pay3 k0_pay2
  simp only [shapeCast_self]
  simp only [maximumf_apply, addf_apply, broadcast_apply, matmul_14x32, matmul_75x32, broadcastTo_1b_ab_apply, truncf_apply,
    zero_word]
  rfl

/-- The pair payload at `(p, q)`: the two-part dense element of the pair's features and the sum of its endpoints' rows,
    joined with the dense element of the pair's features. -/
theorem pay1_apply (x0 : Vec Ideal S4000x14 .f32) (x1 x2 : Vec Ideal S4000x75 .f32) (x6 : Vec Ideal S14x50 .bf16)
    (x7 : Vec Ideal S75x50 .bf16) (x8 : Vec Ideal S1x50 .f32) (x9 : Vec Ideal S14x50 .bf16) (x10 : Vec Ideal S1x50 .f32)
    (p : Fin 4000) (q : Fin 50) :
    (k0_pay1 (F := Ideal) (k0_pay3 x0) (k0_pay4 x1 x2) (k0_pay5 x7) (k0_pay6 x8) (k0_pay7 x9) (k0_pay8 x10) (k0_pay10 x0 x6)) (ix2 p q)
      = Cert.Spec.join
          (Cert.Spec.dense2 (fun k : Fin 14 => x0 (ix2 p k)) (fun k => x6 (ix2 k q)) (fun k : Fin 75 => x2 (ix2 p k) + x1 (ix2 p k))
            (fun k => x7 (ix2 k q)) (x8 (ix2 (0 : Fin 1) q)))
          (Cert.Spec.dense1 (fun k : Fin 14 => x0 (ix2 p k)) (fun k => x9 (ix2 k q)) (x10 (ix2 (0 : Fin 1) q))) := by
  unfold k0_pay1 k0_pay10 k0_pay8 k0_pay7 k0_pay6 k0_pay5 k0_pay4 k0_pay3 k0_pay2
  simp only [shapeCast_self]
  simp only [maximumf_apply, addf_apply, broadcast_apply, matmul_14x50, matmul_75x50, broadcastTo_1b_ab_apply, truncf_apply,
    zero_word]
  rfl

/-! ## The windows' blocks of region 0, read at an index

The three pair-indexed inputs and the two outputs move in blocks of 4000 rows, the block of point `t` holding rows
`4000 t … 4000 t + 3999`; the weight and bias operands are staged whole. -/

theorem hz : (![0, 0] : Fin 2 → Nat) = fun _ => 0 := funext fun a => by fin_cases a <;> rfl

/-- The block index of every window at every point: `(t, 0)` for the row-blocked windows, `(0, 0)` for the whole ones. -/
theorem index_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = t.val ∧ win0_11.index t (1 : Fin 2) = 0)
    ∧ (win0_12.index t (0 : Fin 2) = t.val ∧ win0_12.index t (1 : Fin 2) = 0) :=
  (by decide +kernel : ∀ t : Fin grid0.N, _)

/-- Row `p` of the block of point `t` is row `4000 t + p` of the array. -/
abbrev row (t : Fin cfg0.N) (p : Fin 4000) : Fin 1600000 :=
  ⟨t.val * 4000 + p.val, by have := t.isLt; have hN : cfg0.N = 400 := N_0; omega⟩

/-- The pair features' block at point `t`. -/
theorem blk0_apply (c : Dev nD) (t : Fin cfg0.N) (p : Fin 4000) (k : Fin 14) :
    (iblk0 V c 0 t : Vec Ideal S4000x14 .f32) (ix2 p k) = V c main_arg1 (ix2 (row t p) k) := by
  unfold iblk0
  show V c main_arg1 (((cfg0.win 0).blk t).view.emb (ix2 p k)) = V c main_arg1 (ix2 (row t p) k)
  refine congrArg (V c main_arg1) (funext fun a => Fin.ext ?_)
  obtain ⟨⟨e0, e1⟩, -⟩ := index_facts t
  match a with
  | ⟨0, _⟩ => show win0_0.index t (0 : Fin 2) * 4000 + 1 * p.val = t.val * 4000 + p.val; omega
  | ⟨1, _⟩ => show win0_0.index t (1 : Fin 2) * 14 + 1 * k.val = k.val; omega

/-- The second endpoints' rows' block at point `t`. -/
theorem blk1_apply (c : Dev nD) (t : Fin cfg0.N) (p : Fin 4000) (k : Fin 75) :
    (iblk0 V c 1 t : Vec Ideal S4000x75 .f32) (ix2 p k) = V c main_v10 (ix2 (row t p) k) := by
  unfold iblk0
  show V c main_v10 (((cfg0.win 1).blk t).view.emb (ix2 p k)) = V c main_v10 (ix2 (row t p) k)
  refine congrArg (V c main_v10) (funext fun a => Fin.ext ?_)
  obtain ⟨-, ⟨e0, e1⟩, -⟩ := index_facts t
  match a with
  | ⟨0, _⟩ => show win0_1.index t (0 : Fin 2) * 4000 + 1 * p.val = t.val * 4000 + p.val; omega
  | ⟨1, _⟩ => show win0_1.index t (1 : Fin 2) * 75 + 1 * k.val = k.val; omega

/-- The first endpoints' rows' block at point `t`. -/
theorem blk2_apply (c : Dev nD) (t : Fin cfg0.N) (p : Fin 4000) (k : Fin 75) :
    (iblk0 V c 2 t : Vec Ideal S4000x75 .f32) (ix2 p k) = V c main_v17 (ix2 (row t p) k) := by
  unfold iblk0
  show V c main_v17 (((cfg0.win 2).blk t).view.emb (ix2 p k)) = V c main_v17 (ix2 (row t p) k)
  refine congrArg (V c main_v17) (funext fun a => Fin.ext ?_)
  obtain ⟨-, -, ⟨e0, e1⟩, -⟩ := index_facts t
  match a with
  | ⟨0, _⟩ => show win0_2.index t (0 : Fin 2) * 4000 + 1 * p.val = t.val * 4000 + p.val; omega
  | ⟨1, _⟩ => show win0_2.index t (1 : Fin 2) * 75 + 1 * k.val = k.val; omega

/-- The message weight's first row range, staged whole. -/
theorem blk3_apply (c : Dev nD) (t : Fin cfg0.N) (k : Fin 14) (q : Fin 32) :
    (iblk0 V c 3 t : Vec Ideal S14x32 .bf16) (ix2 k q) = V c main_v19 (ix2 k q) := by
  unfold iblk0
  show V c main_v19 (((cfg0.win 3).blk t).view.emb (ix2 k q)) = V c main_v19 (ix2 k q)
  refine congrArg (V c main_v19) (funext fun a => Fin.ext ?_)
  obtain ⟨-, -, -, ⟨e0, e1⟩, -⟩ := index_facts t
  match a with
  | ⟨0, _⟩ => show win0_3.index t (0 : Fin 2) * 14 + 1 * k.val = k.val; omega
  | ⟨1, _⟩ => show win0_3.index t (1 : Fin 2) * 32 + 1 * q.val = q.val; omega

/-- The message weight's second row range, staged whole. -/
theorem blk4_apply (c : Dev nD) (t : Fin cfg0.N) (k : Fin 75) (q : Fin 32) :
    (iblk0 V c 4 t : Vec Ideal S75x32 .bf16) (ix2 k q) = V c main_v21 (ix2 k q) := by
  unfold iblk0
  show V c main_v21 (((cfg0.win 4).blk t).view.emb (ix2 k q)) = V c main_v21 (ix2 k q)
  refine congrArg (V c main_v21) (funext fun a => Fin.ext ?_)
  obtain ⟨-, -, -, -, ⟨e0, e1⟩, -⟩ := index_facts t
  match a with
  | ⟨0, _⟩ => show win0_4.index t (0 : Fin 2) * 75 + 1 * k.val = k.val; omega
  | ⟨1, _⟩ => show win0_4.index t (1 : Fin 2) * 32 + 1 * q.val = q.val; omega

/-- The message bias row, staged whole. -/
theorem blk5_apply (c : Dev nD) (t : Fin cfg0.N) (u : Fin 1) (q : Fin 32) :
    (iblk0 V c 5 t : Vec Ideal S1x32 .f32) (ix2 u q) = V c main_v32 (ix2 u q) := by
  unfold iblk0
  show V c main_v32 (((cfg0.win 5).blk t).view.emb (ix2 u q)) = V c main_v32 (ix2 u q)
  refine congrArg (V c main_v32) (funext fun a => Fin.ext ?_)
  obtain ⟨-, -, -, -, -, ⟨e0, e1⟩, -⟩ := index_facts t
  match a with
  | ⟨0, _⟩ => show win0_5.index t (0 : Fin 2) * 1 + 1 * u.val = u.val; omega
  | ⟨1, _⟩ => show win0_5.index t (1 : Fin 2) * 32 + 1 * q.val = q.val; omega

/-- The pair weight's first row range, staged whole. -/
theorem blk6_apply (c : Dev nD) (t : Fin cfg0.N) (k : Fin 14) (q : Fin 50) :
    (iblk0 V c 6 t : Vec Ideal S14x50 .bf16) (ix2 k q) = V c main_v23 (ix2 k q) := by
  unfold iblk0
  show V c main_v23 (((cfg0.win 6).blk t).view.emb (ix2 k q)) = V c main_v23 (ix2 k q)
  refine congrArg (V c main_v23) (funext fun a => Fin.ext ?_)
  obtain ⟨-, -, -, -, -, -, ⟨e0, e1⟩, -⟩ := index_facts t
  match a with
  | ⟨0, _⟩ => show win0_6.index t (0 : Fin 2) * 14 + 1 * k.val = k.val; omega
  | ⟨1, _⟩ => show win0_6.index t (1 : Fin 2) * 50 + 1 * q.val = q.val; omega

/-- The pair weight's second row range, staged whole. -/
theorem blk7_apply (c : Dev nD) (t : Fin cfg0.N) (k : Fin 75) (q : Fin 50) :
    (iblk0 V c 7 t : Vec Ideal S75x50 .bf16) (ix2 k q) = V c main_v25 (ix2 k q) := by
  unfold iblk0
  show V c main_v25 (((cfg0.win 7).blk t).view.emb (ix2 k q)) = V c main_v25 (ix2 k q)
  refine congrArg (V c main_v25) (funext fun a => Fin.ext ?_)
  obtain ⟨-, -, -, -, -, -, -, ⟨e0, e1⟩, -⟩ := index_facts t
  match a with
  | ⟨0, _⟩ => show win0_7.index t (0 : Fin 2) * 75 + 1 * k.val = k.val; omega
  | ⟨1, _⟩ => show win0_7.index t (1 : Fin 2) * 50 + 1 * q.val = q.val; omega

/-- The pair bias row, staged whole. -/
theorem blk8_apply (c : Dev nD) (t : Fin cfg0.N) (u : Fin 1) (q : Fin 50) :
    (iblk0 V c 8 t : Vec Ideal S1x50 .f32) (ix2 u q) = V c main_v33 (ix2 u q) := by
  unfold iblk0
  show V c main_v33 (((cfg0.win 8).blk t).view.emb (ix2 u q)) = V c main_v33 (ix2 u q)
  refine congrArg (V c main_v33) (funext fun a => Fin.ext ?_)
  obtain ⟨-, -, -, -, -, -, -, -, ⟨e0, e1⟩, -⟩ := index_facts t
  match a with
  | ⟨0, _⟩ => show win0_8.index t (0 : Fin 2) * 1 + 1 * u.val = u.val; omega
  | ⟨1, _⟩ => show win0_8.index t (1 : Fin 2) * 50 + 1 * q.val = q.val; omega

/-- The pair-to-pair weight, staged whole. -/
theorem blk9_apply (c : Dev nD) (t : Fin cfg0.N) (k : Fin 14) (q : Fin 50) :
    (iblk0 V c 9 t : Vec Ideal S14x50 .bf16) (ix2 k q) = V c main_v26 (ix2 k q) := by
  unfold iblk0
  show V c main_v26 (((cfg0.win 9).blk t).view.emb (ix2 k q)) = V c main_v26 (ix2 k q)
  refine congrArg (V c main_v26) (funext fun a => Fin.ext ?_)
  obtain ⟨-, -, -, -, -, -, -, -, -, ⟨e0, e1⟩, -⟩ := index_facts t
  match a with
  | ⟨0, _⟩ => show win0_9.index t (0 : Fin 2) * 14 + 1 * k.val = k.val; omega
  | ⟨1, _⟩ => show win0_9.index t (1 : Fin 2) * 50 + 1 * q.val = q.val; omega

/-- The pair-to-pair bias row, staged whole. -/
theorem blk10_apply (c : Dev nD) (t : Fin cfg0.N) (u : Fin 1) (q : Fin 50) :
    (iblk0 V c 10 t : Vec Ideal S1x50 .f32) (ix2 u q) = V c main_v34 (ix2 u q) := by
  unfold iblk0
  show V c main_v34 (((cfg0.win 10).blk t).view.emb (ix2 u q)) = V c main_v34 (ix2 u q)
  refine congrArg (V c main_v34) (funext fun a => Fin.ext ?_)
  obtain ⟨-, -, -, -, -, -, -, -, -, -, ⟨e0, e1⟩, -⟩ := index_facts t
  match a with
  | ⟨0, _⟩ => show win0_10.index t (0 : Fin 2) * 1 + 1 * u.val = u.val; omega
  | ⟨1, _⟩ => show win0_10.index t (1 : Fin 2) * 50 + 1 * q.val = q.val; omega

/-- Where an element of the message output's block sits in its array. -/
theorem emb11 (t : Fin cfg0.N) (p : Fin 4000) (q : Fin 32) :
    ((cfg0.win 11).blk t).view.emb (ix2 p q) = (ix2 (row t p) q : S1600000x32.Idx) := by
  refine funext fun a => Fin.ext ?_
  obtain ⟨-, -, -, -, -, -, -, -, -, -, -, ⟨e0, e1⟩, -⟩ := index_facts t
  match a with
  | ⟨0, _⟩ => show win0_11.index t (0 : Fin 2) * 4000 + 1 * p.val = t.val * 4000 + p.val; omega
  | ⟨1, _⟩ => show win0_11.index t (1 : Fin 2) * 32 + 1 * q.val = q.val; omega

/-- Where an element of the pair output's block sits in its array. -/
theorem emb12 (t : Fin cfg0.N) (p : Fin 4000) (q : Fin 50) :
    ((cfg0.win 12).blk t).view.emb (ix2 p q) = (ix2 (row t p) q : S1600000x50.Idx) := by
  refine funext fun a => Fin.ext ?_
  obtain ⟨-, -, -, -, -, -, -, -, -, -, -, -, e0, e1⟩ := index_facts t
  match a with
  | ⟨0, _⟩ => show win0_12.index t (0 : Fin 2) * 4000 + 1 * p.val = t.val * 4000 + p.val; omega
  | ⟨1, _⟩ => show win0_12.index t (1 : Fin 2) * 50 + 1 * q.val = q.val; omega

/-! ## What each point writes back -/

/-- An index of the message block, seen in the uncut block, is itself. -/
theorem xinj11 (t : Fin cfg0.N) (p : Fin 4000) (q : Fin 32) :
    (cfg0.win 11).xinj (grid0.coords t) (ix2 p q) = (ix2 p q : S4000x32.Idx) :=
  funext fun a => by match a with | ⟨0, _⟩ => rfl | ⟨1, _⟩ => rfl

/-- An index of the pair block, seen in the uncut block, is itself. -/
theorem xinj12 (t : Fin cfg0.N) (p : Fin 4000) (q : Fin 50) :
    (cfg0.win 12).xinj (grid0.coords t) (ix2 p q) = (ix2 p q : S4000x50.Idx) :=
  funext fun a => by match a with | ⟨0, _⟩ => rfl | ⟨1, _⟩ => rfl

/-- Point `t` writes block `t` of the message array. -/
theorem flushed11_eq (c : Dev nD) (t : Fin cfg0.N) :
    (dat0 (F := Ideal) V c).flushed 11 t = ((cfg0.win 11).blk t).view.read (Elt Ideal)
      (Cert.Spec.Rmsg (V c main_arg1) (V c main_v10) (V c main_v19) (V c main_v21) (V c main_v32)) := by
  show (cfg0.win 11).cut (grid0.coords t) ((dat0 V c).after 11 t) = _
  rw [after0_11]
  unfold out0_11
  rw [View.canon_unit_zero hz]
  simp only [View.ld_unit_zero (S := S4000x14) hz, View.ld_unit_zero (S := S4000x75) hz, View.ld_unit_zero (S := S14x32) hz,
    View.ld_unit_zero (S := S75x32) hz, View.ld_unit_zero (S := S1x32) hz]
  funext j
  obtain ⟨p, q, rfl⟩ : ∃ (p : Fin 4000) (q : Fin 32), j = ix2 p q := ⟨j 0, j 1, eq_ix2 j⟩
  show k0_pay9 (F := Ideal) (iblk0 V c 0 t) (iblk0 V c 1 t) (iblk0 V c 3 t) (iblk0 V c 4 t) (iblk0 V c 5 t)
        ((cfg0.win 11).xinj (grid0.coords t) (ix2 p q))
      = Cert.Spec.Rmsg (V c main_arg1) (V c main_v10) (V c main_v19) (V c main_v21) (V c main_v32)
        (((cfg0.win 11).blk t).view.emb (ix2 p q))
  rw [xinj11 t p q, emb11 t p q]
  refine (pay9_apply _ _ _ _ _ p q).trans ?_
  simp only [blk0_apply, blk1_apply, blk3_apply, blk4_apply, blk5_apply]
  rfl

/-- Point `t` writes block `t` of the new pair features. -/
theorem flushed12_eq (c : Dev nD) (t : Fin cfg0.N) :
    (dat0 (F := Ideal) V c).flushed 12 t = ((cfg0.win 12).blk t).view.read (Elt Ideal)
      (Cert.Spec.Rpair (V c main_arg1) (V c main_v10) (V c main_v17) (V c main_v23) (V c main_v25) (V c main_v33)
        (V c main_v26) (V c main_v34)) := by
  show (cfg0.win 12).cut (grid0.coords t) ((dat0 V c).after 12 t) = _
  rw [after0_12]
  unfold out0_12
  rw [View.canon_unit_zero hz]
  simp only [View.ld_unit_zero (S := S4000x14) hz, View.ld_unit_zero (S := S4000x75) hz, View.ld_unit_zero (S := S14x50) hz,
    View.ld_unit_zero (S := S75x50) hz, View.ld_unit_zero (S := S1x50) hz]
  funext j
  obtain ⟨p, q, rfl⟩ : ∃ (p : Fin 4000) (q : Fin 50), j = ix2 p q := ⟨j 0, j 1, eq_ix2 j⟩
  show k0_pay1 (F := Ideal) (k0_pay3 (iblk0 V c 0 t)) (k0_pay4 (iblk0 V c 1 t) (iblk0 V c 2 t)) (k0_pay5 (iblk0 V c 7 t))
        (k0_pay6 (iblk0 V c 8 t)) (k0_pay7 (iblk0 V c 9 t)) (k0_pay8 (iblk0 V c 10 t)) (k0_pay10 (iblk0 V c 0 t) (iblk0 V c 6 t))
        ((cfg0.win 12).xinj (grid0.coords t) (ix2 p q))
      = Cert.Spec.Rpair (V c main_arg1) (V c main_v10) (V c main_v17) (V c main_v23) (V c main_v25) (V c main_v33)
          (V c main_v26) (V c main_v34) (((cfg0.win 12).blk t).view.emb (ix2 p q))
  rw [xinj12 t p q, emb12 t p q]
  refine (pay1_apply _ _ _ _ _ _ _ _ p q).trans ?_
  simp only [blk0_apply, blk1_apply, blk2_apply, blk6_apply, blk7_apply, blk8_apply, blk9_apply, blk10_apply]
  rfl

/-! ## From the blocks to the arrays -/

/-- An index of the message array is in point `t`'s block iff each coordinate is in the block's range on its axis. -/
theorem mem_blk11 (t : Fin cfg0.N) (i : S1600000x32.Idx) :
    i ∈ ((cfg0.win 11).blk t).view.set ↔ ∀ a : Fin 2, win0_11.index t a * S4000x32.size a ≤ (i a).val ∧ (i a).val < win0_11.index t a * S4000x32.size a + S4000x32.size a := by
  show i ∈ ((View.whole main_v37_0).slice (win0_11.rect t)).set ↔ _
  rw [View.set_slice_whole, Rect.mem_set_unit]
  exact Iff.rfl

/-- An index of the pair array is in point `t`'s block iff each coordinate is in the block's range on its axis. -/
theorem mem_blk12 (t : Fin cfg0.N) (i : S1600000x50.Idx) :
    i ∈ ((cfg0.win 12).blk t).view.set ↔ ∀ a : Fin 2, win0_12.index t a * S4000x50.size a ≤ (i a).val ∧ (i a).val < win0_12.index t a * S4000x50.size a + S4000x50.size a := by
  show i ∈ ((View.whole main_v37_1).slice (win0_12.rect t)).set ↔ _
  rw [View.set_slice_whole, Rect.mem_set_unit]
  exact Iff.rfl

/-- Row `r` of the message array is in the block of point `r / 4000`, which writes it back. -/
theorem cover11 (i : S1600000x32.Idx) :
    ∃ t : Fin cfg0.N, (cfg0.win 11).flush t = true ∧ i ∈ ((cfg0.win 11).blk t).view.set := by
  have hi0 : (i 0).val < 1600000 := (i 0).isLt
  have hi1 : (i 1).val < 32 := (i 1).isLt
  have hN : cfg0.N = 400 := N_0
  obtain ⟨t, ht⟩ : ∃ t : Fin cfg0.N, t.val = (i 0).val / 4000 := ⟨⟨(i 0).val / 4000, by omega⟩, rfl⟩
  refine ⟨t, flush0_11 t, ?_⟩
  rw [mem_blk11]
  obtain ⟨-, -, -, -, -, -, -, -, -, -, -, ⟨e0, e1⟩, -⟩ := index_facts t
  intro a
  match a with
  | ⟨0, _⟩ => show win0_11.index t (0 : Fin 2) * 4000 ≤ (i 0).val ∧ (i 0).val < win0_11.index t (0 : Fin 2) * 4000 + 4000; omega
  | ⟨1, _⟩ => show win0_11.index t (1 : Fin 2) * 32 ≤ (i 1).val ∧ (i 1).val < win0_11.index t (1 : Fin 2) * 32 + 32; omega

/-- Row `r` of the pair array is in the block of point `r / 4000`, which writes it back. -/
theorem cover12 (i : S1600000x50.Idx) :
    ∃ t : Fin cfg0.N, (cfg0.win 12).flush t = true ∧ i ∈ ((cfg0.win 12).blk t).view.set := by
  have hi0 : (i 0).val < 1600000 := (i 0).isLt
  have hi1 : (i 1).val < 50 := (i 1).isLt
  have hN : cfg0.N = 400 := N_0
  obtain ⟨t, ht⟩ : ∃ t : Fin cfg0.N, t.val = (i 0).val / 4000 := ⟨⟨(i 0).val / 4000, by omega⟩, rfl⟩
  refine ⟨t, flush0_12 t, ?_⟩
  rw [mem_blk12]
  obtain ⟨-, -, -, -, -, -, -, -, -, -, -, -, e0, e1⟩ := index_facts t
  intro a
  match a with
  | ⟨0, _⟩ => show win0_12.index t (0 : Fin 2) * 4000 ≤ (i 0).val ∧ (i 0).val < win0_12.index t (0 : Fin 2) * 4000 + 4000; omega
  | ⟨1, _⟩ => show win0_12.index t (1 : Fin 2) * 50 ≤ (i 1).val ∧ (i 1).val < win0_12.index t (1 : Fin 2) * 50 + 50; omega

theorem arr11 (c : Dev nD) : (dat0 (F := Ideal) V c).arrAt 11 cfg0.N
    = Cert.Spec.Rmsg (V c main_arg1) (V c main_v10) (V c main_v19) (V c main_v21) (V c main_v32) :=
  (dat0 V c).arrAt_eq_of_cover 11 _ (fun t _ => flushed11_eq V c t) cover11

theorem arr12 (c : Dev nD) : (dat0 (F := Ideal) V c).arrAt 12 cfg0.N
    = Cert.Spec.Rpair (V c main_arg1) (V c main_v10) (V c main_v17) (V c main_v23) (V c main_v25) (V c main_v33) (V c main_v26) (V c main_v34) :=
  (dat0 V c).arrAt_eq_of_cover 12 _ (fun t _ => flushed12_eq V c t) cover12

end Cert.KernelIdeal.Reg0

end
-- ==== Proof.Reg1.lean ====
import proofs.«114345_j14705968022035_1_alg».proof.Proof.Gen.KernelIdeal.Frame
import proofs.«114345_j14705968022035_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg1

open Idealize.ShloMosaic Idealize.ShloMosaic.TcCoe Idealize.SL.Sem Idealize.ShloMosaic.ValueIdx
open Idealize.ShloMosaic.Pipeline (Dat Cfg Window)
open Cert.KernelIdeal Cert.KernelIdeal.Gen

/-! ## The body's arithmetic at one element -/

/-- The origin, as the constant function. -/
theorem origin_eq : (![0, 0] : Fin 2 → Nat) = fun _ => 0 := funext fun a => by fin_cases a <;> rfl

/-! ### The 75-term product: the operand indices of the dot at an output index -/

theorem lhs75_0 (i : S4000x50.Idx) (q : dot_S4000x75_S75x50_S4000x50_1_0_0_1_n_n.contr.Idx) :
    (dot_S4000x75_S75x50_S4000x50_1_0_0_1_n_n.lhsIdx i q 0).val = (i 0).val := by
  unfold DotDims.lhsIdx
  rw [dif_neg (show ¬(0 : Fin S4000x75.rank) ∈ dot_S4000x75_S75x50_S4000x50_1_0_0_1_n_n.lhsBatch by decide), dif_pos (show (0 : Fin S4000x75.rank) ∈ dot_S4000x75_S75x50_S4000x50_1_0_0_1_n_n.lhsNonContracting by decide)]
  rfl
theorem lhs75_1 (i : S4000x50.Idx) (q : dot_S4000x75_S75x50_S4000x50_1_0_0_1_n_n.contr.Idx) :
    (dot_S4000x75_S75x50_S4000x50_1_0_0_1_n_n.lhsIdx i q 1).val = (q ⟨0, by decide⟩).val :=
  dot_S4000x75_S75x50_S4000x50_1_0_0_1_n_n.lhsIdx_val_of_single rfl i q
theorem rhs75_0 (i : S4000x50.Idx) (q : dot_S4000x75_S75x50_S4000x50_1_0_0_1_n_n.contr.Idx) :
    (dot_S4000x75_S75x50_S4000x50_1_0_0_1_n_n.rhsIdx i q 0).val = (q ⟨0, by decide⟩).val :=
  dot_S4000x75_S75x50_S4000x50_1_0_0_1_n_n.rhsIdx_val_of_single rfl i q
theorem rhs75_1 (i : S4000x50.Idx) (q : dot_S4000x75_S75x50_S4000x50_1_0_0_1_n_n.contr.Idx) :
    (dot_S4000x75_S75x50_S4000x50_1_0_0_1_n_n.rhsIdx i q 1).val = (i 1).val := by
  unfold DotDims.rhsIdx
  rw [dif_neg (show ¬(1 : Fin S75x50.rank) ∈ dot_S4000x75_S75x50_S4000x50_1_0_0_1_n_n.rhsBatch by decide), dif_pos (show (1 : Fin S75x50.rank) ∈ dot_S4000x75_S75x50_S4000x50_1_0_0_1_n_n.rhsNonContracting by decide)]
  rfl

/-- A product of a [4000,75] block with a [75,50] matrix into the zero accumulator, at row `p` and column `q`: the
    sum over the 75 shared positions of the row's entry times the column's. -/
theorem matmul75_apply (l : FVec Ideal S4000x75 .bf16) (r : FVec Ideal S75x50 .bf16) (p : Fin 4000) (q : Fin 50) :
    FloatOps.matmul dot_S4000x75_S75x50_S4000x50_1_0_0_1_n_n none l r (constant S4000x50 .f32 0x00000000#32) (ix2 p q)
      = ∑ k : Fin 75, l (ix2 p k) * r (ix2 k q) := by
  rw [Ideal.matmul_constant_zero_apply, ← Equiv.sum_comp (ValueIdx.contrEquiv1 dot_S4000x75_S75x50_S4000x50_1_0_0_1_n_n 75 rfl rfl).symm]
  refine Finset.sum_congr rfl fun k _ => ?_
  have hk := ValueIdx.contrEquiv1_symm_val dot_S4000x75_S75x50_S4000x50_1_0_0_1_n_n 75 rfl rfl k
  have el : dot_S4000x75_S75x50_S4000x50_1_0_0_1_n_n.lhsIdx (ix2 p q) ((ValueIdx.contrEquiv1 dot_S4000x75_S75x50_S4000x50_1_0_0_1_n_n 75 rfl rfl).symm k) = ix2 p k := funext fun a => Fin.ext (by
    match a with
    | ⟨0, _⟩ => exact lhs75_0 _ _
    | ⟨1, _⟩ => exact (lhs75_1 _ _).trans hk)
  have er : dot_S4000x75_S75x50_S4000x50_1_0_0_1_n_n.rhsIdx (ix2 p q) ((ValueIdx.contrEquiv1 dot_S4000x75_S75x50_S4000x50_1_0_0_1_n_n 75 rfl rfl).symm k) = ix2 k q := funext fun a => Fin.ext (by
    match a with
    | ⟨0, _⟩ => exact (rhs75_0 _ _).trans hk
    | ⟨1, _⟩ => exact rhs75_1 _ _)
  rw [el, er]

/-! ### The 32-term product: the operand indices of the dot at an output index -/

theorem lhs32_0 (i : S4000x50.Idx) (q : dot_S4000x32_S32x50_S4000x50_1_0_0_1_n_n.contr.Idx) :
    (dot_S4000x32_S32x50_S4000x50_1_0_0_1_n_n.lhsIdx i q 0).val = (i 0).val := by
  unfold DotDims.lhsIdx
  rw [dif_neg (show ¬(0 : Fin S4000x32.rank) ∈ dot_S4000x32_S32x50_S4000x50_1_0_0_1_n_n.lhsBatch by decide), dif_pos (show (0 : Fin S4000x32.rank) ∈ dot_S4000x32_S32x50_S4000x50_1_0_0_1_n_n.lhsNonContracting by decide)]
  rfl
theorem lhs32_1 (i : S4000x50.Idx) (q : dot_S4000x32_S32x50_S4000x50_1_0_0_1_n_n.contr.Idx) :
    (dot_S4000x32_S32x50_S4000x50_1_0_0_1_n_n.lhsIdx i q 1).val = (q ⟨0, by decide⟩).val :=
  dot_S4000x32_S32x50_S4000x50_1_0_0_1_n_n.lhsIdx_val_of_single rfl i q
theorem rhs32_0 (i : S4000x50.Idx) (q : dot_S4000x32_S32x50_S4000x50_1_0_0_1_n_n.contr.Idx) :
    (dot_S4000x32_S32x50_S4000x50_1_0_0_1_n_n.rhsIdx i q 0).val = (q ⟨0, by decide⟩).val :=
  dot_S4000x32_S32x50_S4000x50_1_0_0_1_n_n.rhsIdx_val_of_single rfl i q
theorem rhs32_1 (i : S4000x50.Idx) (q : dot_S4000x32_S32x50_S4000x50_1_0_0_1_n_n.contr.Idx) :
    (dot_S4000x32_S32x50_S4000x50_1_0_0_1_n_n.rhsIdx i q 1).val = (i 1).val := by
  unfold DotDims.rhsIdx
  rw [dif_neg (show ¬(1 : Fin S32x50.rank) ∈ dot_S4000x32_S32x50_S4000x50_1_0_0_1_n_n.rhsBatch by decide), dif_pos (show (1 : Fin S32x50.rank) ∈ dot_S4000x32_S32x50_S4000x50_1_0_0_1_n_n.rhsNonContracting by decide)]
  rfl

/-- A product of a [4000,32] block with a [32,50] matrix into the zero accumulator, at row `p` and column `q`: the
    sum over the 32 shared positions of the row's entry times the column's. -/
theorem matmul32_apply (l : FVec Ideal S4000x32 .bf16) (r : FVec Ideal S32x50 .bf16) (p : Fin 4000) (q : Fin 50) :
    FloatOps.matmul dot_S4000x32_S32x50_S4000x50_1_0_0_1_n_n none l r (constant S4000x50 .f32 0x00000000#32) (ix2 p q)
      = ∑ k : Fin 32, l (ix2 p k) * r (ix2 k q) := by
  rw [Ideal.matmul_constant_zero_apply, ← Equiv.sum_comp (ValueIdx.contrEquiv1 dot_S4000x32_S32x50_S4000x50_1_0_0_1_n_n 32 rfl rfl).symm]
  refine Finset.sum_congr rfl fun k _ => ?_
  have hk := ValueIdx.contrEquiv1_symm_val dot_S4000x32_S32x50_S4000x50_1_0_0_1_n_n 32 rfl rfl k
  have el : dot_S4000x32_S32x50_S4000x50_1_0_0_1_n_n.lhsIdx (ix2 p q) ((ValueIdx.contrEquiv1 dot_S4000x32_S32x50_S4000x50_1_0_0_1_n_n 32 rfl rfl).symm k) = ix2 p k := funext fun a => Fin.ext (by
    match a with
    | ⟨0, _⟩ => exact lhs32_0 _ _
    | ⟨1, _⟩ => exact (lhs32_1 _ _).trans hk)
  have er : dot_S4000x32_S32x50_S4000x50_1_0_0_1_n_n.rhsIdx (ix2 p q) ((ValueIdx.contrEquiv1 dot_S4000x32_S32x50_S4000x50_1_0_0_1_n_n 32 rfl rfl).symm k) = ix2 k q := funext fun a => Fin.ext (by
    match a with
    | ⟨0, _⟩ => exact (rhs32_0 _ _).trans hk
    | ⟨1, _⟩ => exact rhs32_1 _ _)
  rw [el, er]

/-- The body's result at row `p`, column `q` of a block: the rectified sum of the two-part dense element over the
    atom row and the message row, and the dense element over the atom row. -/
theorem pay_apply (x0 : Vec Ideal S4000x75 .f32) (x1 : Vec Ideal S4000x32 .f32) (x2 : Vec Ideal S75x50 .bf16)
    (x3 : Vec Ideal S32x50 .bf16) (x4 : Vec Ideal S1x50 .f32) (x5 : Vec Ideal S75x50 .bf16) (x6 : Vec Ideal S1x50 .f32)
    (p : Fin 4000) (q : Fin 50) :
    (k1_pay1 (F := Ideal) x0 x1 x2 x3 x4 x5 x6) (ix2 p q)
      = Cert.Spec.join
          (Cert.Spec.dense2 (fun k : Fin 75 => x0 (ix2 p k)) (fun k => x2 (ix2 k q)) (fun k : Fin 32 => x1 (ix2 p k))
            (fun k => x3 (ix2 k q)) (x4 (ix2 (0 : Fin 1) q)))
          (Cert.Spec.dense1 (fun k : Fin 75 => x0 (ix2 p k)) (fun k => x5 (ix2 k q)) (x6 (ix2 (0 : Fin 1) q))) := by
  unfold k1_pay1
  simp only [matmul, maximumf_apply, addf_apply, broadcast_apply, shapeCast_self, broadcastTo_1b_ab_apply,
    matmul75_apply, matmul32_apply, truncf_apply]
  have zero_word : (FloatOps.ofBits (F := Ideal) .f32 0x00000000#32) = (0 : EReal) := Ideal.ofBits_zero_f32
  rw [zero_word]
  rfl

/-! ## From blocks to the array -/

/-- The index maps at every point of the grid: the atom rows, the message rows and the output move together, block
    `t` at point `t`; the weights and biases stay whole. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Every one of the 25 row blocks is some point's. -/
theorem idx_onto : ∀ q0 : Fin 25, ∃ t : Fin cfg1.N, win1_7.index t = ![q0.val, 0] :=
  (by decide +kernel : ∀ q0 : Fin 25, ∃ t : Fin grid1.N, win1_7.index t = ![q0.val, 0])

/-- The atom row that row `p` of point `t`'s block is: `t · 4000 + p`. -/
def row (t : Fin cfg1.N) (p : Fin 4000) : Fin 100000 :=
  ⟨t.val * 4000 + p.val, by have ht : t.val < 25 := lt_of_lt_of_eq t.isLt N_1; have hp := p.isLt; omega⟩

theorem row_val (t : Fin cfg1.N) (p : Fin 4000) : (row t p).val = t.val * 4000 + p.val := rfl

/-- An index of the output array is in point `t`'s block iff each coordinate is in the block's range on its axis. -/
theorem mem_blk (t : Fin cfg1.N) (i : S100000x50.Idx) :
    i ∈ ((cfg1.win 7).blk t).view.set ↔ ∀ a : Fin 2, win1_7.index t a * S4000x50.size a ≤ (i a).val
      ∧ (i a).val < win1_7.index t a * S4000x50.size a + S4000x50.size a := by
  show i ∈ ((View.whole main_v41).slice (win1_7.rect t)).set ↔ _
  rw [View.set_slice_whole, Rect.mem_set_unit]
  exact Iff.rfl

/-- Every index of the output array is in some point's block: row `r` is in the block of point `r / 4000`. -/
theorem cover (i : S100000x50.Idx) :
    ∃ t : Fin cfg1.N, (cfg1.win 7).flush t = true ∧ i ∈ ((cfg1.win 7).blk t).view.set := by
  have hi0 : (i 0).val < 100000 := (i 0).isLt
  have hi1 : (i 1).val < 50 := (i 1).isLt
  obtain ⟨t, ht⟩ := idx_onto ⟨(i 0).val / 4000, by omega⟩
  have q0 : win1_7.index t (0 : Fin 2) = (i 0).val / 4000 := congrFun ht 0
  have q1 : win1_7.index t (1 : Fin 2) = 0 := congrFun ht 1
  refine ⟨t, flush1_7 t, ?_⟩
  rw [mem_blk]
  intro a
  match a with
  | ⟨0, _⟩ =>
    show win1_7.index t (0 : Fin 2) * 4000 ≤ (i 0).val ∧ (i 0).val < win1_7.index t (0 : Fin 2) * 4000 + 4000
    omega
  | ⟨1, _⟩ =>
    show win1_7.index t (1 : Fin 2) * 50 ≤ (i 1).val ∧ (i 1).val < win1_7.index t (1 : Fin 2) * 50 + 50
    omega

variable (V : (c : Dev nD) → (b : Ref sig .tc) → Buf (Elt Ideal) ((c : Thread nD τ).loc b))

/-! ### Each window's block at a point, read off its array -/

/-- The atom-feature block at point `t` is rows `t · 4000 …` of the atom features. -/
theorem blk0_apply (c : Dev nD) (t : Fin cfg1.N) (p : Fin 4000) (k : Fin 75) :
    iblk1 V c 0 t (ix2 p k) = V c main_arg0 (ix2 (row t p) k) := by
  unfold iblk1
  show V c main_arg0 (((cfg1.win 0).blk t).view.emb (ix2 p k)) = V c main_arg0 (ix2 (row t p) k)
  refine congrArg _ (funext fun a => Fin.ext ?_)
  obtain ⟨e00, e01, e10, e11, e20, e21, e30, e31, e40, e41, e50, e51, e60, e61, e70, e71⟩ := idx_facts t
  match a with
  | ⟨0, _⟩ => show win1_0.index t (0 : Fin 2) * 4000 + 1 * p.val = t.val * 4000 + p.val; omega
  | ⟨1, _⟩ => show win1_0.index t (1 : Fin 2) * 75 + 1 * k.val = k.val; omega

/-- The summed-message block at point `t` is rows `t · 4000 …` of the summed messages. -/
theorem blk1_apply (c : Dev nD) (t : Fin cfg1.N) (p : Fin 4000) (k : Fin 32) :
    iblk1 V c 1 t (ix2 p k) = V c main_v40 (ix2 (row t p) k) := by
  unfold iblk1
  show V c main_v40 (((cfg1.win 1).blk t).view.emb (ix2 p k)) = V c main_v40 (ix2 (row t p) k)
  refine congrArg _ (funext fun a => Fin.ext ?_)
  obtain ⟨e00, e01, e10, e11, e20, e21, e30, e31, e40, e41, e50, e51, e60, e61, e70, e71⟩ := idx_facts t
  match a with
  | ⟨0, _⟩ => show win1_1.index t (0 : Fin 2) * 4000 + 1 * p.val = t.val * 4000 + p.val; omega
  | ⟨1, _⟩ => show win1_1.index t (1 : Fin 2) * 32 + 1 * k.val = k.val; omega

/-- The first row range of `W_ao` is staged whole at every point. -/
theorem blk2_apply (c : Dev nD) (t : Fin cfg1.N) (k : Fin 75) (q : Fin 50) :
    iblk1 V c 2 t (ix2 k q) = V c main_v28 (ix2 k q) := by
  unfold iblk1
  show V c main_v28 (((cfg1.win 2).blk t).view.emb (ix2 k q)) = V c main_v28 (ix2 k q)
  refine congrArg _ (funext fun a => Fin.ext ?_)
  obtain ⟨e00, e01, e10, e11, e20, e21, e30, e31, e40, e41, e50, e51, e60, e61, e70, e71⟩ := idx_facts t
  match a with
  | ⟨0, _⟩ => show win1_2.index t (0 : Fin 2) * 75 + 1 * k.val = k.val; omega
  | ⟨1, _⟩ => show win1_2.index t (1 : Fin 2) * 50 + 1 * q.val = q.val; omega

/-- The second row range of `W_ao` is staged whole at every point. -/
theorem blk3_apply (c : Dev nD) (t : Fin cfg1.N) (k : Fin 32) (q : Fin 50) :
    iblk1 V c 3 t (ix2 k q) = V c main_v30 (ix2 k q) := by
  unfold iblk1
  show V c main_v30 (((cfg1.win 3).blk t).view.emb (ix2 k q)) = V c main_v30 (ix2 k q)
  refine congrArg _ (funext fun a => Fin.ext ?_)
  obtain ⟨e00, e01, e10, e11, e20, e21, e30, e31, e40, e41, e50, e51, e60, e61, e70, e71⟩ := idx_facts t
  match a with
  | ⟨0, _⟩ => show win1_3.index t (0 : Fin 2) * 32 + 1 * k.val = k.val; omega
  | ⟨1, _⟩ => show win1_3.index t (1 : Fin 2) * 50 + 1 * q.val = q.val; omega

/-- The bias row of `W_ao` is staged whole at every point. -/
theorem blk4_apply (c : Dev nD) (t : Fin cfg1.N) (k : Fin 1) (q : Fin 50) :
    iblk1 V c 4 t (ix2 k q) = V c main_v35 (ix2 k q) := by
  unfold iblk1
  show V c main_v35 (((cfg1.win 4).blk t).view.emb (ix2 k q)) = V c main_v35 (ix2 k q)
  refine congrArg _ (funext fun a => Fin.ext ?_)
  obtain ⟨e00, e01, e10, e11, e20, e21, e30, e31, e40, e41, e50, e51, e60, e61, e70, e71⟩ := idx_facts t
  match a with
  | ⟨0, _⟩ => show win1_4.index t (0 : Fin 2) * 1 + 1 * k.val = k.val; omega
  | ⟨1, _⟩ => show win1_4.index t (1 : Fin 2) * 50 + 1 * q.val = q.val; omega

/-- `W_aa` is staged whole at every point. -/
theorem blk5_apply (c : Dev nD) (t : Fin cfg1.N) (k : Fin 75) (q : Fin 50) :
    iblk1 V c 5 t (ix2 k q) = V c main_v31 (ix2 k q) := by
  unfold iblk1
  show V c main_v31 (((cfg1.win 5).blk t).view.emb (ix2 k q)) = V c main_v31 (ix2 k q)
  refine congrArg _ (funext fun a => Fin.ext ?_)
  obtain ⟨e00, e01, e10, e11, e20, e21, e30, e31, e40, e41, e50, e51, e60, e61, e70, e71⟩ := idx_facts t
  match a with
  | ⟨0, _⟩ => show win1_5.index t (0 : Fin 2) * 75 + 1 * k.val = k.val; omega
  | ⟨1, _⟩ => show win1_5.index t (1 : Fin 2) * 50 + 1 * q.val = q.val; omega

/-- The bias row of `W_aa` is staged whole at every point. -/
theorem blk6_apply (c : Dev nD) (t : Fin cfg1.N) (k : Fin 1) (q : Fin 50) :
    iblk1 V c 6 t (ix2 k q) = V c main_v36 (ix2 k q) := by
  unfold iblk1
  show V c main_v36 (((cfg1.win 6).blk t).view.emb (ix2 k q)) = V c main_v36 (ix2 k q)
  refine congrArg _ (funext fun a => Fin.ext ?_)
  obtain ⟨e00, e01, e10, e11, e20, e21, e30, e31, e40, e41, e50, e51, e60, e61, e70, e71⟩ := idx_facts t
  match a with
  | ⟨0, _⟩ => show win1_6.index t (0 : Fin 2) * 1 + 1 * k.val = k.val; omega
  | ⟨1, _⟩ => show win1_6.index t (1 : Fin 2) * 50 + 1 * q.val = q.val; omega

/-- Element `(p, q)` of the output block at point `t` is element `(t · 4000 + p, q)` of the output array. -/
theorem out_emb (t : Fin cfg1.N) (p : Fin 4000) (q : Fin 50) :
    ((cfg1.win 7).blk t).view.emb (ix2 p q) = ix2 (row t p) q := by
  refine funext fun a => Fin.ext ?_
  obtain ⟨e00, e01, e10, e11, e20, e21, e30, e31, e40, e41, e50, e51, e60, e61, e70, e71⟩ := idx_facts t
  match a with
  | ⟨0, _⟩ => show win1_7.index t (0 : Fin 2) * 4000 + 1 * p.val = t.val * 4000 + p.val; omega
  | ⟨1, _⟩ => show win1_7.index t (1 : Fin 2) * 50 + 1 * q.val = q.val; omega

/-- What point `t` writes back is block `t` of the region's function of its operands. -/
theorem flushed_eq (c : Dev nD) (t : Fin cfg1.N) :
    (dat1 (F := Ideal) V c).flushed 7 t = ((cfg1.win 7).blk t).view.read (Elt Ideal) (Cert.Spec.Ratom (V c main_arg0) (V c main_v40) (V c main_v28) (V c main_v30) (V c main_v35) (V c main_v31) (V c main_v36)) := by
  show (cfg1.win 7).cut (grid1.coords t) ((dat1 (F := Ideal) V c).after 7 t) = _
  rw [after1_7]
  unfold out1_7
  rw [View.canon_unit_zero origin_eq]
  simp only [View.ld_unit_zero (S := S4000x75) origin_eq, View.ld_unit_zero (S := S4000x32) origin_eq,
    View.ld_unit_zero (S := S75x50) origin_eq, View.ld_unit_zero (S := S32x50) origin_eq,
    View.ld_unit_zero (S := S1x50) origin_eq]
  funext j
  obtain ⟨p, q, rfl⟩ : ∃ (p : Fin 4000) (q : Fin 50), j = ix2 p q := ⟨j 0, j 1, eq_ix2 j⟩
  show (k1_pay1 (F := Ideal) (iblk1 V c 0 t) (iblk1 V c 1 t) (iblk1 V c 2 t) (iblk1 V c 3 t) (iblk1 V c 4 t) (iblk1 V c 5 t)
        (iblk1 V c 6 t)) (ix2 p q) = (Cert.Spec.Ratom (V c main_arg0) (V c main_v40) (V c main_v28) (V c main_v30) (V c main_v35) (V c main_v31) (V c main_v36)) (((cfg1.win 7).blk t).view.emb (ix2 p q))
  refine (pay_apply _ _ _ _ _ _ _ p q).trans ?_
  rw [out_emb t p q]
  show _ = Cert.Spec.ratom (V c main_arg0) (V c main_v40) (V c main_v28) (V c main_v30) (V c main_v35) (V c main_v31)
    (V c main_v36) (row t p) q
  unfold Cert.Spec.ratom
  have h0 : (fun k : Fin 75 => iblk1 V c 0 t (ix2 p k)) = fun k => V c main_arg0 (ix2 (row t p) k) :=
    funext fun k => blk0_apply V c t p k
  have h1 : (fun k : Fin 32 => iblk1 V c 1 t (ix2 p k)) = fun k => V c main_v40 (ix2 (row t p) k) :=
    funext fun k => blk1_apply V c t p k
  have h2 : (fun k : Fin 75 => iblk1 V c 2 t (ix2 k q)) = fun k => V c main_v28 (ix2 k q) :=
    funext fun k => blk2_apply V c t k q
  have h3 : (fun k : Fin 32 => iblk1 V c 3 t (ix2 k q)) = fun k => V c main_v30 (ix2 k q) :=
    funext fun k => blk3_apply V c t k q
  have h4 : iblk1 V c 4 t (ix2 (0 : Fin 1) q) = V c main_v35 (ix2 (0 : Fin 1) q) := blk4_apply V c t 0 q
  have h5 : (fun k : Fin 75 => iblk1 V c 5 t (ix2 k q)) = fun k => V c main_v31 (ix2 k q) :=
    funext fun k => blk5_apply V c t k q
  have h6 : iblk1 V c 6 t (ix2 (0 : Fin 1) q) = V c main_v36 (ix2 (0 : Fin 1) q) := blk6_apply V c t 0 q
  rw [h0, h1, h2, h3, h4, h5, h6]

/-- The output array of the atom kernel's region after its run: the region's function of its operands. -/
theorem arr7 (c : Dev nD) : (dat1 (F := Ideal) V c).arrAt 7 cfg1.N
    = Cert.Spec.Ratom (V c main_arg0) (V c main_v40) (V c main_v28) (V c main_v30) (V c main_v35) (V c main_v31) (V c main_v36) :=
  (dat1 (F := Ideal) V c).arrAt_eq_of_cover 7 (Cert.Spec.Ratom (V c main_arg0) (V c main_v40) (V c main_v28) (V c main_v30) (V c main_v35) (V c main_v31) (V c main_v36)) (fun t _ => flushed_eq V c t) cover

end Cert.KernelIdeal.Reg1

end
-- ==== Proof.SpecBridge.lean ====
/-
  A kernel region's element forms are the layer's, once the region's operands are read back to the arguments:
  each of the region's weight operands is a row range of a weight matrix (rows `o + k`), each bias operand the bias
  as one row. Under those readings the two spellings of every output element are the same term.
-/
import proofs.«114345_j14705968022035_1_alg».proof.Proof.Spec

noncomputable section

namespace Cert.Spec

open Idealize.ShloMosaic Idealize.ShloMosaic.ValueIdx

theorem Rmsg_eq_Gmsg {pf : A2 1600000 14} {aj : A2 1600000 75} {w3 : A2 14 32} {w4 : A2 75 32} {b5 : A2 1 32}
    {Wpa : A2 89 32} {bpa : A1 32}
    (h3 : ∀ (k : Fin 14) (j : Fin 32), w3 (ix2 k j) = Wpa (ix2 ⟨0 + k.val, by omega⟩ j))
    (h4 : ∀ (k : Fin 75) (j : Fin 32), w4 (ix2 k j) = Wpa (ix2 ⟨14 + k.val, by omega⟩ j))
    (h5 : ∀ j : Fin 32, b5 (ix2 (0 : Fin 1) j) = bpa (ix1 j)) :
    Rmsg pf aj w3 w4 b5 = Gmsg pf aj Wpa bpa := by
  funext i
  obtain ⟨r, j, rfl⟩ : ∃ (r : Fin 1600000) (j : Fin 32), i = ix2 r j := ⟨i 0, i 1, eq_ix2 i⟩
  show rmsg pf aj w3 w4 b5 r j = gmsg pf aj Wpa bpa r j
  unfold rmsg gmsg
  simp only [h3, h4, h5]

theorem Rpair_eq_Gpair {pf : A2 1600000 14} {aj ai : A2 1600000 75} {w6 : A2 14 50} {w7 : A2 75 50} {b8 : A2 1 50}
    {w9 : A2 14 50} {b10 : A2 1 50} {Wap : A2 89 50} {bap : A1 50} {Wpp : A2 14 50} {bpp : A1 50}
    (h6 : ∀ (k : Fin 14) (j : Fin 50), w6 (ix2 k j) = Wap (ix2 ⟨0 + k.val, by omega⟩ j))
    (h7 : ∀ (k : Fin 75) (j : Fin 50), w7 (ix2 k j) = Wap (ix2 ⟨14 + k.val, by omega⟩ j))
    (h8 : ∀ j : Fin 50, b8 (ix2 (0 : Fin 1) j) = bap (ix1 j))
    (h9 : ∀ (k : Fin 14) (j : Fin 50), w9 (ix2 k j) = Wpp (ix2 k j))
    (h10 : ∀ j : Fin 50, b10 (ix2 (0 : Fin 1) j) = bpp (ix1 j)) :
    Rpair pf aj ai w6 w7 b8 w9 b10 = Gpair pf ai aj Wap bap Wpp bpp := by
  funext i
  obtain ⟨r, j, rfl⟩ : ∃ (r : Fin 1600000) (j : Fin 50), i = ix2 r j := ⟨i 0, i 1, eq_ix2 i⟩
  show rpair pf aj ai w6 w7 b8 w9 b10 r j = gpair pf ai aj Wap bap Wpp bpp r j
  unfold rpair gpair
  simp only [h6, h7, h8, h9, h10]

theorem Ratom_eq_Gatom {af : A2 100000 75} {sm : A2 100000 32} {w2 : A2 75 50} {w3 : A2 32 50} {b4 : A2 1 50}
    {w5 : A2 75 50} {b6 : A2 1 50} {Wao : A2 107 50} {bao : A1 50} {Waa : A2 75 50} {baa : A1 50}
    (h2 : ∀ (k : Fin 75) (j : Fin 50), w2 (ix2 k j) = Wao (ix2 ⟨0 + k.val, by omega⟩ j))
    (h3 : ∀ (k : Fin 32) (j : Fin 50), w3 (ix2 k j) = Wao (ix2 ⟨75 + k.val, by omega⟩ j))
    (h4 : ∀ j : Fin 50, b4 (ix2 (0 : Fin 1) j) = bao (ix1 j))
    (h5 : ∀ (k : Fin 75) (j : Fin 50), w5 (ix2 k j) = Waa (ix2 k j))
    (h6 : ∀ j : Fin 50, b6 (ix2 (0 : Fin 1) j) = baa (ix1 j)) :
    Ratom af sm w2 w3 b4 w5 b6 = Gatom af sm Wao bao Waa baa := by
  funext i
  obtain ⟨r, j, rfl⟩ : ∃ (r : Fin 100000) (j : Fin 50), i = ix2 r j := ⟨i 0, i 1, eq_ix2 i⟩
  show ratom af sm w2 w3 b4 w5 b6 r j = gatom af sm Wao bao Waa baa r j
  unfold ratom gatom
  simp only [h2, h3, h4, h5, h6]

end Cert.Spec

end
-- ==== Proof.KernelValue.lean ====
/-
  The idealized kernel program's two results as the layer's arrays.

  The pair kernel's region leaves, block by block, the messages and the new pair features of the rows it is given; the
  host sums the messages per atom; the atom kernel's region leaves the new atom features. Each region's operands are read
  back to the arguments: a weight operand is a row range of a weight matrix (the narrowing to bf16 is the identity on
  extended reals), a bias operand is the bias as one row, the endpoint rows are the host's gathers. So the program ends
  with its results at `Gatom` and `Gpair` of the arguments, the gathered rows and the summed messages.
-/
import proofs.«114345_j14705968022035_1_alg».proof.Proof.KernelRun
import proofs.«114345_j14705968022035_1_alg».proof.Proof.HostRead
import proofs.«114345_j14705968022035_1_alg».proof.Proof.Reg0
import proofs.«114345_j14705968022035_1_alg».proof.Proof.Reg1
import proofs.«114345_j14705968022035_1_alg».proof.Proof.SpecBridge
import Idealize.ShloMosaic.Lib.ValueLayout

set_option maxRecDepth 16384

noncomputable section

namespace Cert.KernelIdeal.Val

open Idealize.ShloMosaic Idealize.ShloMosaic.TcCoe Idealize.SL.Sem Idealize.ShloMosaic.ValueIdx
open Cert.KernelIdeal Cert.KernelIdeal.Gen Cert.KernelIdeal.Host

variable (m : (ℓ : Loc nD τ sig) → Buf (Elt Ideal) ℓ) (ρ : Dev nD → PrngReg)

/-- The messages, as the pair kernel's region leaves them: the dense layer `W_pa`, `b_pa` on each pair's features and its
    second endpoint's atom row. -/
theorem msg_eq (c : Dev nD) : (dat0 (V1 m ρ) c).arrAt 11 cfg0.N
    = Cert.Spec.Gmsg (m ((c : Thread nD τ).loc main_arg1))
        (rowsJ (m ((c : Thread nD τ).loc main_arg0)) (m ((c : Thread nD τ).loc main_arg13)))
        (m ((c : Thread nD τ).loc main_arg2)) (m ((c : Thread nD τ).loc main_arg3)) := by
  rw [Cert.KernelIdeal.Reg0.arr11 (V1 m ρ) c, V1_arg1, V1_v10, V1_v19, V1_v21, V1_v32]
  exact Cert.Spec.Rmsg_eq_Gmsg
    (fun k j => slice2_axis0_apply 0 (m ((c : Thread nD τ).loc main_arg2)) slices_S89x32_S14x32_0_0 k j ⟨0 + k.val, by omega⟩ rfl)
    (fun k j => slice2_axis0_apply 14 (m ((c : Thread nD τ).loc main_arg2)) slices_S89x32_S75x32_14_0 k j ⟨14 + k.val, by omega⟩ rfl)
    (fun j => shapeCast_a_1a_apply (m ((c : Thread nD τ).loc main_arg3)) shapeCasts_S32_S1x32 0 j)

/-- The new pair features, as the pair kernel's region leaves them. -/
theorem pair_eq (c : Dev nD) : (dat0 (V1 m ρ) c).arrAt 12 cfg0.N
    = Cert.Spec.Gpair (m ((c : Thread nD τ).loc main_arg1))
        (rowsI (m ((c : Thread nD τ).loc main_arg0)) (m ((c : Thread nD τ).loc main_arg13)))
        (rowsJ (m ((c : Thread nD τ).loc main_arg0)) (m ((c : Thread nD τ).loc main_arg13)))
        (m ((c : Thread nD τ).loc main_arg8)) (m ((c : Thread nD τ).loc main_arg9))
        (m ((c : Thread nD τ).loc main_arg10)) (m ((c : Thread nD τ).loc main_arg11)) := by
  rw [Cert.KernelIdeal.Reg0.arr12 (V1 m ρ) c, V1_arg1, V1_v10, V1_v17, V1_v23, V1_v25, V1_v33, V1_v26, V1_v34]
  exact Cert.Spec.Rpair_eq_Gpair
    (fun k j => slice2_axis0_apply 0 (m ((c : Thread nD τ).loc main_arg8)) slices_S89x50_S14x50_0_0 k j ⟨0 + k.val, by omega⟩ rfl)
    (fun k j => slice2_axis0_apply 14 (m ((c : Thread nD τ).loc main_arg8)) slices_S89x50_S75x50_14_0 k j ⟨14 + k.val, by omega⟩ rfl)
    (fun j => shapeCast_a_1a_apply (m ((c : Thread nD τ).loc main_arg9)) shapeCasts_S50_S1x50 0 j)
    (fun k j => rfl)
    (fun j => shapeCast_a_1a_apply (m ((c : Thread nD τ).loc main_arg11)) shapeCasts_S50_S1x50 0 j)

/-- The new atom features, as the atom kernel's region leaves them, over the per-atom sums of the messages. -/
theorem atom_eq (c : Dev nD) : (dat1 (V3 m ρ) c).arrAt 7 cfg1.N
    = Cert.Spec.Gatom (m ((c : Thread nD τ).loc main_arg0))
        (segSum (m ((c : Thread nD τ).loc main_arg13))
          (Cert.Spec.Gmsg (m ((c : Thread nD τ).loc main_arg1))
            (rowsJ (m ((c : Thread nD τ).loc main_arg0)) (m ((c : Thread nD τ).loc main_arg13)))
            (m ((c : Thread nD τ).loc main_arg2)) (m ((c : Thread nD τ).loc main_arg3))))
        (m ((c : Thread nD τ).loc main_arg4)) (m ((c : Thread nD τ).loc main_arg5))
        (m ((c : Thread nD τ).loc main_arg6)) (m ((c : Thread nD τ).loc main_arg7)) := by
  rw [Cert.KernelIdeal.Reg1.arr7 (V3 m ρ) c, V3_arg0, V3_v40, V3_v28, V3_v30, V3_v35, V3_v31, V3_v36, msg_eq m ρ c]
  exact Cert.Spec.Ratom_eq_Gatom
    (fun k j => slice2_axis0_apply 0 (m ((c : Thread nD τ).loc main_arg4)) slices_S107x50_S75x50_0_0 k j ⟨0 + k.val, by omega⟩ rfl)
    (fun k j => slice2_axis0_apply 75 (m ((c : Thread nD τ).loc main_arg4)) slices_S107x50_S32x50_75_0 k j ⟨75 + k.val, by omega⟩ rfl)
    (fun j => shapeCast_a_1a_apply (m ((c : Thread nD τ).loc main_arg5)) shapeCasts_S50_S1x50 0 j)
    (fun k j => rfl)
    (fun j => shapeCast_a_1a_apply (m ((c : Thread nD τ).loc main_arg7)) shapeCasts_S50_S1x50 0 j)

/-- THE RUN, READ: every weakly fair execution of the idealized kernel program terminates, nothing faulting, with the
    new atom features at `Gatom` and the new pair features at `Gpair` of the arguments, and the arguments as launched. -/
theorem run : θ_run defs (onTc (τ := τ) (main (F := Ideal))) ⟨m, fun _ => 0, ρ⟩ (fun r => ∀ c : Dev nD,
      r.2.mem ((c.tc : Thread nD τ).loc main_v41)
        = Cert.Spec.Gatom (m ((c.tc : Thread nD τ).loc main_arg0))
            (segSum (m ((c.tc : Thread nD τ).loc main_arg13)) (Cert.Spec.Gmsg (m ((c.tc : Thread nD τ).loc main_arg1)) (rowsJ (m ((c.tc : Thread nD τ).loc main_arg0)) (m ((c.tc : Thread nD τ).loc main_arg13))) (m ((c.tc : Thread nD τ).loc main_arg2)) (m ((c.tc : Thread nD τ).loc main_arg3))))
            (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v37_1)
        = Cert.Spec.Gpair (m ((c.tc : Thread nD τ).loc main_arg1)) (rowsI (m ((c.tc : Thread nD τ).loc main_arg0)) (m ((c.tc : Thread nD τ).loc main_arg13))) (rowsJ (m ((c.tc : Thread nD τ).loc main_arg0)) (m ((c.tc : Thread nD τ).loc main_arg13)))
            (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
      ⟨(h c).1.trans ((res_v41 m ρ c).trans (atom_eq m ρ c)),
       (h c).2.1.trans ((res_v37_1 m ρ c).trans (pair_eq m ρ c)),
       (h c).2.2⟩)
    (Cert.KernelIdeal.Named.run_named m ρ)

end Cert.KernelIdeal.Val

end
-- ==== Proof.RefVal.lean ====
/-
  Three stages of the reference layer are the specification's arrays.

  Each stage is a rectified affine form read index by index: a dense layer applied to a row joined from two pieces
  (the pair features with gathered atom rows; the atom features with the summed messages) is the dot product of the
  joined row with a weight column plus a bias, clipped below at zero. Reading the joined row piece by piece splits
  that dot product at the join into the two inner sums of a two-part dense element; the remaining operations
  (adding the bias row, the maximum with the constant zero, adding two branches) act on one element at a time.
  The gathered rows and the summed messages enter only as arrays; nothing is asked of how they were made.
-/
import proofs.«114345_j14705968022035_1_alg».proof.Proof.Gen.ReferenceIdeal.Read
import proofs.«114345_j14705968022035_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ReferenceIdeal.RefVal

open Idealize.ShloMosaic Idealize.ShloMosaic.TcCoe Idealize.SL.Sem Idealize.ShloMosaic.ValueIdx
open Cert.ReferenceIdeal Cert.ReferenceIdeal.Gen Cert.ReferenceIdeal.Read

/-! ## A row of two joined pieces against a weight column

A row of the joined array reads the first piece on the coordinates below the first piece's width and the second
piece, at the coordinate less that width, on the others; so its dot product with a weight column is the first
piece's dot product with the weight's top rows plus the second piece's with the rows below. -/

section Joined
variable {R K1 K2 K : Nat}

/-- A joined row on a coordinate of the first piece. -/
theorem cat_left (h : Shape.Concatenates [(⟨2, ![R, K1]⟩ : Shape), ⟨2, ![R, K2]⟩] ⟨2, ![R, K]⟩ 1)
    (a : (⟨2, ![R, K1]⟩ : Shape).Idx → EReal) (b : (⟨2, ![R, K2]⟩ : Shape).Idx → EReal) (r : Fin R) (k : Fin K1)
    (hk : k.val < K) :
    concatenate (⟨2, ![R, K]⟩ : Shape) 1 [⟨_, a⟩, ⟨_, b⟩] h (ix2 r ⟨k.val, hk⟩) = a (ix2 r k) :=
  concatenate_pair_apply_left 1 a b h _ rfl (ix2 r k) (fun c => match c with | ⟨0, _⟩ => rfl | ⟨1, _⟩ => rfl)

/-- A joined row on a coordinate of the second piece. -/
theorem cat_right (h : Shape.Concatenates [(⟨2, ![R, K1]⟩ : Shape), ⟨2, ![R, K2]⟩] ⟨2, ![R, K]⟩ 1)
    (a : (⟨2, ![R, K1]⟩ : Shape).Idx → EReal) (b : (⟨2, ![R, K2]⟩ : Shape).Idx → EReal) (r : Fin R) (k : Fin K2)
    (hk : K1 + k.val < K) :
    concatenate (⟨2, ![R, K]⟩ : Shape) 1 [⟨_, a⟩, ⟨_, b⟩] h (ix2 r ⟨K1 + k.val, hk⟩) = b (ix2 r k) :=
  concatenate_pair_apply_right 1 a b h _ rfl rfl (ix2 r k)
    (fun c => match c with | ⟨0, _⟩ => fun _ => rfl | ⟨1, _⟩ => fun hc => absurd rfl hc)
    (show k.val + K1 = K1 + k.val from Nat.add_comm _ _)

/-- The dot product of a joined row with a weight column, split at the join. -/
theorem dot_cat (h : Shape.Concatenates [(⟨2, ![R, K1]⟩ : Shape), ⟨2, ![R, K2]⟩] ⟨2, ![R, K]⟩ 1)
    (a : (⟨2, ![R, K1]⟩ : Shape).Idx → EReal) (b : (⟨2, ![R, K2]⟩ : Shape).Idx → EReal) {N : Nat}
    (W : (⟨2, ![K, N]⟩ : Shape).Idx → EReal) (hK : K1 + K2 = K) (r : Fin R) (j : Fin N) :
    (∑ k : Fin K, concatenate (⟨2, ![R, K]⟩ : Shape) 1 [⟨_, a⟩, ⟨_, b⟩] h (ix2 r k) * W (ix2 k j))
      = (∑ k : Fin K1, a (ix2 r k) * W (ix2 ⟨0 + k.val, by omega⟩ j))
        + ∑ k : Fin K2, b (ix2 r k) * W (ix2 ⟨K1 + k.val, by omega⟩ j) := by
  rw [Cert.Spec.sum_concat hK]
  congr 1
  · refine Finset.sum_congr rfl fun k _ => ?_
    rw [cat_left h a b r k]
    have e : (⟨k.val, by omega⟩ : Fin K) = ⟨0 + k.val, by omega⟩ := Fin.ext (Nat.zero_add _).symm
    rw [e]
  · refine Finset.sum_congr rfl fun k _ => ?_
    rw [cat_right h a b r k]

end Joined

/-! ## The messages -/

theorem lidx12 (r : Fin 1600000) (j : Fin 32) (k : Fin 89) : lidx_main_v12 (ix2 r j) k = ix2 r k :=
  funext fun a => Fin.ext (by match a with | ⟨0, _⟩ => rfl | ⟨1, _⟩ => rfl)
theorem ridx12 (r : Fin 1600000) (j : Fin 32) (k : Fin 89) : ridx_main_v12 (ix2 r j) k = ix2 k j :=
  funext fun a => Fin.ext (by match a with | ⟨0, _⟩ => rfl | ⟨1, _⟩ => rfl)
theorem bidx14 (r : Fin 1600000) (j : Fin 32) : idx_main_v13 (idx_main_v14 (ix2 r j)) = ix1 j :=
  funext fun a => Fin.ext (by match a with | ⟨0, _⟩ => rfl)

/-- The dense layer on (pair features ‖ the second endpoint's gathered row), rectified. -/
theorem v16_eq (x0 : (⟨S100000x75, .f32⟩ : BufTy).Contents (Elt Ideal)) (x1 : (⟨S1600000x14, .f32⟩ : BufTy).Contents (Elt Ideal))
    (x2 : (⟨S89x32, .f32⟩ : BufTy).Contents (Elt Ideal)) (x3 : (⟨S32, .f32⟩ : BufTy).Contents (Elt Ideal))
    (x13 : (⟨S1600000x2, .i32⟩ : BufTy).Contents (Elt Ideal)) :
    val_main_v16 (F := Ideal) x0 x1 x2 x3 x13 = Cert.Spec.Gmsg x1 (val_main_v10 (F := Ideal) x0 x13) x2 x3 := by
  funext i
  obtain ⟨r, j, rfl⟩ : ∃ (r : Fin 1600000) (j : Fin 32), i = ix2 r j := ⟨i 0, i 1, eq_ix2 i⟩
  rw [val_main_v16_apply, val_main_v15_apply, val_main_v12_apply, val_main_v14_apply, val_main_v13_apply,
    val_main_call0_v0_apply, val_main_call0_cst_apply]
  simp only [lidx12, ridx12, bidx14, Ideal.maximumf_def, Ideal.addf_def, Ideal.ofBits_def, Ideal.ofBits_zero_f32]
  unfold val_main_v11
  generalize val_main_v10 (F := Ideal) x0 x13 = y
  exact congrArg (fun s : EReal => max (s + x3 (ix1 j)) 0)
    (dot_cat concatenates_S1600000x14_S1600000x75_S1600000x89_d1 x1 y x2 rfl r j)

/-! ## The new pair features -/

theorem lidx42 (r : Fin 1600000) (j : Fin 50) (k : Fin 89) : lidx_main_v42 (ix2 r j) k = ix2 r k :=
  funext fun a => Fin.ext (by match a with | ⟨0, _⟩ => rfl | ⟨1, _⟩ => rfl)
theorem ridx42 (r : Fin 1600000) (j : Fin 50) (k : Fin 89) : ridx_main_v42 (ix2 r j) k = ix2 k j :=
  funext fun a => Fin.ext (by match a with | ⟨0, _⟩ => rfl | ⟨1, _⟩ => rfl)
theorem bidx44 (r : Fin 1600000) (j : Fin 50) : idx_main_v43 (idx_main_v44 (ix2 r j)) = ix1 j :=
  funext fun a => Fin.ext (by match a with | ⟨0, _⟩ => rfl)
theorem lidx47 (r : Fin 1600000) (j : Fin 50) (k : Fin 14) : lidx_main_v47 (ix2 r j) k = ix2 r k :=
  funext fun a => Fin.ext (by match a with | ⟨0, _⟩ => rfl | ⟨1, _⟩ => rfl)
theorem ridx47 (r : Fin 1600000) (j : Fin 50) (k : Fin 14) : ridx_main_v47 (ix2 r j) k = ix2 k j :=
  funext fun a => Fin.ext (by match a with | ⟨0, _⟩ => rfl | ⟨1, _⟩ => rfl)
theorem bidx49 (r : Fin 1600000) (j : Fin 50) : idx_main_v48 (idx_main_v49 (ix2 r j)) = ix1 j :=
  funext fun a => Fin.ext (by match a with | ⟨0, _⟩ => rfl)

/-- The joined branch runs over (pair features ‖ the sum of the two endpoints' rows); the other branch is the dense
    layer on the pair features alone; the two rectified branches are added and rectified again. -/
theorem v53_eq (x0 : (⟨S100000x75, .f32⟩ : BufTy).Contents (Elt Ideal)) (x1 : (⟨S1600000x14, .f32⟩ : BufTy).Contents (Elt Ideal))
    (x8 : (⟨S89x50, .f32⟩ : BufTy).Contents (Elt Ideal)) (x9 : (⟨S50, .f32⟩ : BufTy).Contents (Elt Ideal))
    (x10 : (⟨S14x50, .f32⟩ : BufTy).Contents (Elt Ideal)) (x11 : (⟨S50, .f32⟩ : BufTy).Contents (Elt Ideal))
    (x13 : (⟨S1600000x2, .i32⟩ : BufTy).Contents (Elt Ideal)) :
    val_main_v53 (F := Ideal) x0 x1 x8 x9 x10 x11 x13
      = Cert.Spec.Gpair x1 (val_main_v39 (F := Ideal) x0 x13) (val_main_v10 (F := Ideal) x0 x13) x8 x9 x10 x11 := by
  funext i
  obtain ⟨r, j, rfl⟩ : ∃ (r : Fin 1600000) (j : Fin 50), i = ix2 r j := ⟨i 0, i 1, eq_ix2 i⟩
  rw [val_main_v53_apply, val_main_v52_apply, val_main_v46_apply, val_main_v45_apply, val_main_v42_apply,
    val_main_v44_apply, val_main_v43_apply, val_main_call4_v0_apply, val_main_call4_cst_apply,
    val_main_v51_apply, val_main_v50_apply, val_main_v47_apply, val_main_v49_apply, val_main_v48_apply,
    val_main_call5_v0_apply, val_main_call5_cst_apply, val_main_call6_v0_apply, val_main_call6_cst_apply]
  simp only [lidx42, ridx42, bidx44, lidx47, ridx47, bidx49, Ideal.maximumf_def, Ideal.addf_def, Ideal.ofBits_def,
    Ideal.ofBits_zero_f32]
  unfold val_main_v41 val_main_v40
  generalize val_main_v39 (F := Ideal) x0 x13 = ya
  generalize val_main_v10 (F := Ideal) x0 x13 = yb
  exact congrArg
    (fun s : EReal =>
      max (max (s + x9 (ix1 j)) 0 + max ((∑ k : Fin 14, x1 (ix2 r k) * x10 (ix2 k j)) + x11 (ix1 j)) 0) 0)
    (dot_cat concatenates_S1600000x14_S1600000x75_S1600000x89_d1 x1 (fun i => ya i + yb i) x8 rfl r j)

/-! ## The new atom features -/

theorem lidx21 (r : Fin 100000) (j : Fin 50) (k : Fin 107) : lidx_main_v21 (ix2 r j) k = ix2 r k :=
  funext fun a => Fin.ext (by match a with | ⟨0, _⟩ => rfl | ⟨1, _⟩ => rfl)
theorem ridx21 (r : Fin 100000) (j : Fin 50) (k : Fin 107) : ridx_main_v21 (ix2 r j) k = ix2 k j :=
  funext fun a => Fin.ext (by match a with | ⟨0, _⟩ => rfl | ⟨1, _⟩ => rfl)
theorem bidx23 (r : Fin 100000) (j : Fin 50) : idx_main_v22 (idx_main_v23 (ix2 r j)) = ix1 j :=
  funext fun a => Fin.ext (by match a with | ⟨0, _⟩ => rfl)
theorem lidx26 (r : Fin 100000) (j : Fin 50) (k : Fin 75) : lidx_main_v26 (ix2 r j) k = ix2 r k :=
  funext fun a => Fin.ext (by match a with | ⟨0, _⟩ => rfl | ⟨1, _⟩ => rfl)
theorem ridx26 (r : Fin 100000) (j : Fin 50) (k : Fin 75) : ridx_main_v26 (ix2 r j) k = ix2 k j :=
  funext fun a => Fin.ext (by match a with | ⟨0, _⟩ => rfl | ⟨1, _⟩ => rfl)
theorem bidx28 (r : Fin 100000) (j : Fin 50) : idx_main_v27 (idx_main_v28 (ix2 r j)) = ix1 j :=
  funext fun a => Fin.ext (by match a with | ⟨0, _⟩ => rfl)

/-- The joined branch runs over (atom features ‖ the atom's summed messages); the other branch is the dense layer on
    the atom features alone; the two rectified branches are added and rectified again. -/
theorem v32_eq (x0 : (⟨S100000x75, .f32⟩ : BufTy).Contents (Elt Ideal)) (x1 : (⟨S1600000x14, .f32⟩ : BufTy).Contents (Elt Ideal))
    (x2 : (⟨S89x32, .f32⟩ : BufTy).Contents (Elt Ideal)) (x3 : (⟨S32, .f32⟩ : BufTy).Contents (Elt Ideal))
    (x4 : (⟨S107x50, .f32⟩ : BufTy).Contents (Elt Ideal)) (x5 : (⟨S50, .f32⟩ : BufTy).Contents (Elt Ideal))
    (x6 : (⟨S75x50, .f32⟩ : BufTy).Contents (Elt Ideal)) (x7 : (⟨S50, .f32⟩ : BufTy).Contents (Elt Ideal))
    (x13 : (⟨S1600000x2, .i32⟩ : BufTy).Contents (Elt Ideal)) :
    val_main_v32 (F := Ideal) x0 x1 x2 x3 x4 x5 x6 x7 x13
      = Cert.Spec.Gatom x0 (val_main_v19 (F := Ideal) x0 x1 x2 x3 x13) x4 x5 x6 x7 := by
  funext i
  obtain ⟨r, j, rfl⟩ : ∃ (r : Fin 100000) (j : Fin 50), i = ix2 r j := ⟨i 0, i 1, eq_ix2 i⟩
  rw [val_main_v32_apply, val_main_v31_apply, val_main_v25_apply, val_main_v24_apply, val_main_v21_apply,
    val_main_v23_apply, val_main_v22_apply, val_main_call1_v0_apply, val_main_call1_cst_apply,
    val_main_v30_apply, val_main_v29_apply, val_main_v26_apply, val_main_v28_apply, val_main_v27_apply,
    val_main_call2_v0_apply, val_main_call2_cst_apply, val_main_call3_v0_apply, val_main_call3_cst_apply]
  simp only [lidx21, ridx21, bidx23, lidx26, ridx26, bidx28, Ideal.maximumf_def, Ideal.addf_def, Ideal.ofBits_def,
    Ideal.ofBits_zero_f32]
  unfold val_main_v20
  generalize val_main_v19 (F := Ideal) x0 x1 x2 x3 x13 = y
  exact congrArg
    (fun s : EReal =>
      max (max (s + x5 (ix1 j)) 0 + max ((∑ k : Fin 75, x0 (ix2 r k) * x6 (ix2 k j)) + x7 (ix1 j)) 0) 0)
    (dot_cat concatenates_S100000x75_S100000x32_S100000x107_d1 x0 y x4 rfl r j)

end Cert.ReferenceIdeal.RefVal

end
-- ==== Proof.Glue.lean ====
/-
  The two programs apply the SAME host operations to the pair table and the atom features — the endpoint columns, the wrap
  of negative indices, the row gathers, the scatter-add of messages into zeros — and those are carried here as whole
  functions: the kernel program's term and the reference's stage are one term, whatever the float family.
-/
import proofs.«114345_j14705968022035_1_alg».proof.Proof.HostRead
import proofs.«114345_j14705968022035_1_alg».proof.Proof.Gen.ReferenceIdeal.Read

noncomputable section

namespace Cert.Glue

open Idealize.ShloMosaic Idealize.ShloMosaic.TcCoe

variable {F : FTy → Type} [FloatOps F]

/-- The rows gathered at the second endpoints: the kernel program's term is the reference's stage. -/
theorem rowsJ_eq (x0 : (⟨Cert.KernelIdeal.S100000x75, .f32⟩ : BufTy).Contents (Elt F))
    (x13 : (⟨Cert.KernelIdeal.S1600000x2, .i32⟩ : BufTy).Contents (Elt F)) :
    Cert.KernelIdeal.Host.rowsJ (F := F) x0 x13 = Cert.ReferenceIdeal.Read.val_main_v10 (F := F) x0 x13 := rfl

/-- The rows gathered at the first endpoints. -/
theorem rowsI_eq (x0 : (⟨Cert.KernelIdeal.S100000x75, .f32⟩ : BufTy).Contents (Elt F))
    (x13 : (⟨Cert.KernelIdeal.S1600000x2, .i32⟩ : BufTy).Contents (Elt F)) :
    Cert.KernelIdeal.Host.rowsI (F := F) x0 x13 = Cert.ReferenceIdeal.Read.val_main_v39 (F := F) x0 x13 := rfl

/-- The per-atom sums of a message array. -/
theorem segSum_eq (x13 : (⟨Cert.KernelIdeal.S1600000x2, .i32⟩ : BufTy).Contents (Elt F))
    (u : (⟨Cert.KernelIdeal.S1600000x32, .f32⟩ : BufTy).Contents (Elt F)) :
    Cert.KernelIdeal.Host.segSum (F := F) x13 u
      = Host.scatterAdd Cert.ReferenceIdeal.scatter_S100000x32_S1600000x1_S1600000x32_1_0_0_1
          (Cert.ReferenceIdeal.Read.val_main_v17 (F := F)) (Cert.ReferenceIdeal.Read.val_main_v18 (F := F) x13) u := rfl

end Cert.Glue

end
-- ==== Proof.lean ====
/-
  The certificate: the molecular convolution layer's Pallas kernel against its jnp reference, over the extended reals.

  Both programs gather each pair's two endpoint rows from the atom features, apply rectified dense layers and sum the
  pair → atom messages per atom. The reference applies each dense layer to a CONCATENATED feature row (pair features ‖ atom
  rows, atom features ‖ summed messages) against the whole weight matrix; the kernel program cuts each weight matrix in its
  two row ranges on the host and adds the two matrix products inside its kernels, block by block. A sum over a concatenated
  axis is the sum over its two parts (Spec.lean), so every output element is one and the same term: the two programs
  end with equal results, as extended reals, on arguments that agree; no finiteness of the inputs is used.
  The frames of the two kernel programs are the generated ones; the reference's frame is its generated run with the results
  dropped; the idealization rewrote no operation, so nothing is to be preserved.
-/
import proofs.«114345_j14705968022035_1_alg».proof.Defs
import proofs.«114345_j14705968022035_1_alg».proof.Proof.Gen.Kernel
import proofs.«114345_j14705968022035_1_alg».proof.Proof.Gen.Kernel.Skeleton
import proofs.«114345_j14705968022035_1_alg».proof.Proof.Gen.Kernel.Launch
import proofs.«114345_j14705968022035_1_alg».proof.Proof.Gen.Kernel.Points
import proofs.«114345_j14705968022035_1_alg».proof.Proof.Gen.Kernel.Frame
import proofs.«114345_j14705968022035_1_alg».proof.Proof.Gen.KernelIdeal
import proofs.«114345_j14705968022035_1_alg».proof.Proof.Gen.KernelIdeal.Skeleton
import proofs.«114345_j14705968022035_1_alg».proof.Proof.Gen.KernelIdeal.Launch
import proofs.«114345_j14705968022035_1_alg».proof.Proof.Gen.KernelIdeal.Points
import proofs.«114345_j14705968022035_1_alg».proof.Proof.Gen.KernelIdeal.Frame
import proofs.«114345_j14705968022035_1_alg».proof.Proof.Gen.ReferenceIdeal
import proofs.«114345_j14705968022035_1_alg».proof.Proof.Gen.ReferenceIdeal.Run
import proofs.«114345_j14705968022035_1_alg».proof.Proof.Gen.ReferenceIdeal.Read
import proofs.«114345_j14705968022035_1_alg».proof.Proof.Gen.Pre_finite_inputs
import proofs.«114345_j14705968022035_1_alg».proof.Proof.KernelValue
import proofs.«114345_j14705968022035_1_alg».proof.Proof.RefVal
import proofs.«114345_j14705968022035_1_alg».proof.Proof.Glue
import Idealize.ShloMosaic.Adequacy
import Idealize.ShloMosaic.Init

noncomputable section

namespace Cert.Proof

open Idealize.ShloMosaic Idealize.ShloMosaic.TcCoe Idealize.SL.Sem

/-! ## The reference's two results as the layer's arrays, over the kernel program's host terms -/

section RefSide
open Cert.ReferenceIdeal Cert.ReferenceIdeal.Read

/-- The reference's summed messages are the kernel program's scatter-add of the message array. -/
theorem ref_sums (x0 : (⟨S100000x75, .f32⟩ : BufTy).Contents (Elt Ideal)) (x1 : (⟨S1600000x14, .f32⟩ : BufTy).Contents (Elt Ideal))
    (x2 : (⟨S89x32, .f32⟩ : BufTy).Contents (Elt Ideal)) (x3 : (⟨S32, .f32⟩ : BufTy).Contents (Elt Ideal))
    (x13 : (⟨S1600000x2, .i32⟩ : BufTy).Contents (Elt Ideal)) :
    val_main_v19 (F := Ideal) x0 x1 x2 x3 x13
      = Cert.KernelIdeal.Host.segSum x13 (Cert.Spec.Gmsg x1 (Cert.KernelIdeal.Host.rowsJ x0 x13) x2 x3) := by
  rw [Cert.Glue.segSum_eq, Cert.Glue.rowsJ_eq, ← Cert.ReferenceIdeal.RefVal.v16_eq]
  rfl

/-- The reference's new atom features. -/
theorem ref_atom (x0 : (⟨S100000x75, .f32⟩ : BufTy).Contents (Elt Ideal)) (x1 : (⟨S1600000x14, .f32⟩ : BufTy).Contents (Elt Ideal))
    (x2 : (⟨S89x32, .f32⟩ : BufTy).Contents (Elt Ideal)) (x3 : (⟨S32, .f32⟩ : BufTy).Contents (Elt Ideal))
    (x4 : (⟨S107x50, .f32⟩ : BufTy).Contents (Elt Ideal)) (x5 : (⟨S50, .f32⟩ : BufTy).Contents (Elt Ideal))
    (x6 : (⟨S75x50, .f32⟩ : BufTy).Contents (Elt Ideal)) (x7 : (⟨S50, .f32⟩ : BufTy).Contents (Elt Ideal))
    (x13 : (⟨S1600000x2, .i32⟩ : BufTy).Contents (Elt Ideal)) :
    val_main_v32 (F := Ideal) x0 x1 x2 x3 x4 x5 x6 x7 x13
      = Cert.Spec.Gatom x0 (Cert.KernelIdeal.Host.segSum x13 (Cert.Spec.Gmsg x1 (Cert.KernelIdeal.Host.rowsJ x0 x13) x2 x3))
          x4 x5 x6 x7 := by
  rw [Cert.ReferenceIdeal.RefVal.v32_eq, ref_sums]

/-- The reference's new pair features. -/
theorem ref_pair (x0 : (⟨S100000x75, .f32⟩ : BufTy).Contents (Elt Ideal)) (x1 : (⟨S1600000x14, .f32⟩ : BufTy).Contents (Elt Ideal))
    (x8 : (⟨S89x50, .f32⟩ : BufTy).Contents (Elt Ideal)) (x9 : (⟨S50, .f32⟩ : BufTy).Contents (Elt Ideal))
    (x10 : (⟨S14x50, .f32⟩ : BufTy).Contents (Elt Ideal)) (x11 : (⟨S50, .f32⟩ : BufTy).Contents (Elt Ideal))
    (x13 : (⟨S1600000x2, .i32⟩ : BufTy).Contents (Elt Ideal)) :
    val_main_v53 (F := Ideal) x0 x1 x8 x9 x10 x11 x13
      = Cert.Spec.Gpair x1 (Cert.KernelIdeal.Host.rowsI x0 x13) (Cert.KernelIdeal.Host.rowsJ x0 x13) x8 x9 x10 x11 := by
  rw [Cert.ReferenceIdeal.RefVal.v53_eq, Cert.Glue.rowsI_eq, Cert.Glue.rowsJ_eq]

end RefSide

/-! ## The claims -/

theorem frame_k : Cert.frame_Kernel := fun m ρ _ => Cert.Kernel.Gen.frame m ρ

theorem frame_ki : Cert.frame_KernelIdeal := fun m ρ _ => Cert.KernelIdeal.Gen.frame m ρ

/-- The reference's frame: its run, the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the arguments both idealized programs end with the new atom features at `Gatom` and the
    new pair features at `Gpair` of those arguments. -/
theorem algebraic : Cert.algebraic_KernelIdeal_ReferenceIdeal := by
  intro m ρ m' ρ' _ hagree
  refine ⟨_, _, Cert.KernelIdeal.Val.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, e6, e7, e8, e9, e10, e11, e12, e13⟩ := hagree c
    rw [Cert.ReferenceIdeal.Read.val_main_v32_eq, ref_atom, e0, e1, e2, e3, e4, e5, e6, e7, e13]
  · obtain ⟨e0, e1, e2, e3, e4, e5, e6, e7, e8, e9, e10, e11, e12, e13⟩ := hagree c
    rw [Cert.ReferenceIdeal.Read.val_main_v53_eq, ref_pair, e0, e1, e8, e9, e10, e11, e13]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
